-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3072x1024 : Shape := ⟨2, ![3072, 1024]⟩
abbrev S3072 : Shape := ⟨1, ![3072]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S8x2048x1024 .f32) (main_arg1 : FVec F S3072x1024 .f32) (main_arg2 : FVec F S3072 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S8x2048x1024 : Shape := ⟨3, ![8, 2048, 1024]⟩
abbrev S3072x1024 : Shape := ⟨2, ![3072, 1024]⟩
abbrev S3072 : Shape := ⟨1, ![3072]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S1x3072 : Shape := ⟨2, ![1, 3072]⟩
abbrev S8x2048x3072 : Shape := ⟨3, ![8, 2048, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S1024x3072, .f32⟩
  | .hbm, ⟨4, _⟩ => ⟨S1024x3072, .bf16⟩
  | .hbm, ⟨5, _⟩ => ⟨S16384x1024, .f32⟩
  | .hbm, ⟨6, _⟩ => ⟨S16384x3072, .bf16⟩
  | .hbm, ⟨7, _⟩ => ⟨S8x2048x3072, .bf16⟩
  | .hbm, ⟨8, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x512x1024, .f32⟩
  | .local _ .vmem, ⟨13, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S3072x1024_S1024x3072_1_0 : S3072x1024.Transposes [1, 0] S1024x3072
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .bf16 = 32 ∨ (Rect.block (s := S16384x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x3072.size a
  hwx1_0 : ∀ i : grid1.Coords, EltTy.bits .bf16 = 32 ∨ (Rect.block (s := S8x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x3072.size a
  hwx1_1 : ∀ i : grid1.Coords, EltTy.bits .bf16 = 32 ∨ (Rect.block (s := S8x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x3072.size a
  hwx1_2 : ∀ i : grid1.Coords, EltTy.bits .bf16 = 32 ∨ (Rect.block (s := S8x2048x3072) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S3072x1024 : Shape := ⟨2, ![3072, 1024]⟩
abbrev S3072 : Shape := ⟨1, ![3072]⟩
abbrev S8x2048x3072 : Shape := ⟨3, ![8, 2048, 3072]⟩
abbrev S1x1x3072 : Shape := ⟨3, ![1, 1, 3072]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3072x1024, .f32⟩
  | .hbm, ⟨2, _⟩ => ⟨S3072, .f32⟩
  | .hbm, ⟨3, _⟩ => ⟨S8x2048x3072, .f32⟩
  | .hbm, ⟨4, _⟩ => ⟨S1x1x3072, .f32⟩
  | .hbm, ⟨5, _⟩ => ⟨S8x2048x3072, .f32⟩
  | .hbm, ⟨6, _⟩ => ⟨S8x2048x3072, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  slices_S8x2048x3072_S8x2048x1024_0_0_0 : S8x2048x3072.Slices ![0, 0, 0] S8x2048x1024
  slices_S8x2048x3072_S8x2048x1024_0_0_1024 : S8x2048x3072.Slices ![0, 0, 1024] S8x2048x1024
  slices_S8x2048x3072_S8x2048x1024_0_0_2048 : S8x2048x3072.Slices ![0, 0, 2048] S8x2048x1024
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S3072x1024_S8x2048x3072_2_1_01_0_n_n_wf : DotDims.WF S8x2048x1024 S3072x1024 S8x2048x3072 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S3072x1024_S8x2048x3072_2_1_01_0_n_n : DotDims S8x2048x1024 S3072x1024 S8x2048x3072 where
  lhsContracting := [2]
  rhsContracting := [1]
  lhsNonContracting := [0, 1]
  rhsNonContracting := [0]
  lhsBatch := []
  rhsBatch := []
  wf := dot_S8x2048x1024_S3072x1024_S8x2048x3072_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KRegion0.lean ====
/-
  The projection region (the first pallas_call), at any float instance and at any contents V of the core's buffers
  when the region is entered. At grid point t the body is handed the block of 512 rows of the reshaped x, the whole
  transposed weight and the whole bias, and leaves in the output window's buffer the one whole-block store of
  its payload: the 512×3072 block of  x·Wᵀ + bias. The proof data name that per point; the invariant is the untouched
  scoped rest; nothing is owed.
-/
import proofs.«406627_j7318624272435_3_alg».proof.Proof.Gen.Kernel.Launch
import proofs.«406627_j7318624272435_3_alg».proof.Proof.Gen.Kernel.Skeleton
import proofs.«406627_j7318624272435_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its
    block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S512x3072 := Rect.unit (s := S512x3072) ![0, 0] S512x3072.size inb_S512x3072_S512x3072_0_0

/-! ## What the body leaves in the output window's buffer -/

/-- The output buffer after the body, from the three input blocks: its one store, the payload of the loads. -/
def out0_3 (x0 : Vec F S512x1024 .f32) (x1 : Vec F S1024x3072 .bf16) (x2 : Vec F S3072 .f32) : Vec F S512x3072 .bf16 :=
  View.canon [⟨r0_o, k0_pay1 (View.ld x0 r0_x) (View.ld x1 r0_w) (View.ld x2 r0_b)⟩]

/-- The store takes the whole buffer, so it covers it. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

/-! ## The body's triple -/

set_option maxHeartbeats 1000000 in
/-- The body on whole staging memrefs, the inputs' at contents x0, x1, x2 and the output's at anything, runs to the
    continuation holding the inputs' as they were and the output's at `out0_3` of them. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S3072 .f32) (harg3 : arg3.IsWhole)
    (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core c: the arrays as the region finds them; after the body at point t each input's
    buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
/-
  The attention region (the second pallas_call), at any float instance and at any contents V of the core's buffers when
  the region is entered. Its three input windows read ONE array, the projection: at grid point (b, qi) the body is
  handed the query block (rows 512·qi … of batch b, columns 0–1023), the key block (all rows of batch b, columns
  1024–2047) and the value block (all rows of batch b, columns 2048–3071), and leaves in the output window's buffer the
  one whole-block store of its payload, the normalised weighted sum of the value rows. The array's full share is held in
  three parts, one per input window; the output's array is held outright. The invariant is the untouched scoped
  rest; nothing is owed.
-/
import proofs.«406627_j7318624272435_3_alg».proof.Proof.Gen.Kernel.Launch
import proofs.«406627_j7318624272435_3_alg».proof.Proof.Gen.Kernel.Skeleton
import proofs.«406627_j7318624272435_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, its
    block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0

/-! ## What the body leaves in the output window's buffer -/

/-- The output buffer after the body, from the three input blocks: its one store, the payload of the loads. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_kv) (View.ld x2 r1_kv)⟩]

/-- The store takes the whole buffer, so it covers it. -/
theorem cover1_3 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

/-! ## The body's triple -/

set_option maxHeartbeats 1000000 in
/-- The body on whole staging memrefs, the inputs' at contents x0, x1, x2 and the output's at anything, runs to the
    continuation holding the inputs' as they were and the output's at `out1_3` of them. -/
theorem sound_kernel1 (c : Dev nD) (E : Set ℕ) (i : grid1.Coords) (arg2 : Memref sig .tc .vmem S1x512x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The region's proof data on core c: the arrays as the region finds them; after the body at point t each input's
    buffer at its block and the output's at `out1_3` of the input blocks; the invariant the scoped rest and the
    generator register, untouched; nothing owed; the projection's full share in three parts, one per input window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem share1_0 (c : Dev nD) : (dat1 V c).share 0 = fullShare.left := by unfold Dat.share; dsimp only [dat1]; rfl
theorem share1_1 (c : Dev nD) : (dat1 V c).share 1 = fullShare.right.left := by unfold Dat.share; dsimp only [dat1]; rfl
theorem share1_2 (c : Dev nD) : (dat1 V c).share 2 = fullShare.right.right := by unfold Dat.share; dsimp only [dat1]; rfl
theorem share1_3 (c : Dev nD) : (dat1 V c).share 3 = fullShare := by unfold Dat.share; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KShares1.lean ====
/-
  The attention region's three input windows read one array, the projection. The region holds that array's full share
  in three parts — the left half, and the two halves of the right half — one per window, and the output's array
  outright. Entering the region, the core's unscoped buffers at contents V are these four holdings, at V's contents,
  beside the unscoped rest; leaving it, four holdings at contents that agree on the shared array join back.
-/
import proofs.«406627_j7318624272435_3_alg».proof.Proof.KRegion1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region's windows read two arrays: the projection and the output. -/
theorem shares1_image : Finset.univ.image (Pipeline.arrRef spec1) = [main_v4, main_v5].toFinset := by decide

/-- Both are unscoped references. -/
theorem shares1_image_sub : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

/-- The region's arrays at contents G, window by window: each a whole buffer at its window's share. -/
theorem shares1_arrays_eq (Vd : (c : Dev nD) → (b : Ref sig .tc) → Buf (Elt F) ((c : Thread nD τ).loc b)) (c : Dev nD)
    (G : (w : Fin cfg1.W) → Buf (Elt F) (((cfg1.win w).arr.view.loc (c : Thread nD τ)))) :
    ((dat1 Vd c).arrays G : sProp 𝕄)
      = iprop((((c : Thread nD τ).loc (Pipeline.arrRef spec1 0)) ↦{fullShare.left} G 0)
        ∗ (((c : Thread nD τ).loc (Pipeline.arrRef spec1 1)) ↦{fullShare.right.left} G 1)
        ∗ (((c : Thread nD τ).loc (Pipeline.arrRef spec1 2)) ↦{fullShare.right.right} G 2)
        ∗ (((c : Thread nD τ).loc (Pipeline.arrRef spec1 3)) ↦{fullShare} G 3)) := by
  have h : ((dat1 Vd c).arrays G : sProp 𝕄)
      = bigSep Finset.univ fun w => (((c : Thread nD τ).loc (Pipeline.arrRef spec1 w)) ↦{(dat1 Vd c).share w} G w : sProp 𝕄) := by
    unfold Dat.arrays
    exact bigSep_congr fun w _ => by rw [(arr_whole1 w).set_eq_univ]
  rw [h, bigSep_W1, share1_0, share1_1, share1_2, share1_3]

/-- ENTRY: the core's unscoped buffers at contents V are the region's arrays at V's contents, the projection's
    full share dealt in three, and the unscoped rest. -/
theorem arrays1_of_unscopedBufs (Vd : (c : Dev nD) → (b : Ref sig .tc) → Buf (Elt F) ((c : Thread nD τ).loc b)) (c : Dev nD)
    (V : (b : Ref sig .tc) → Buf (Elt F) ((c : Thread nD τ).loc b)) :
    (unscopedBufs c V : sProp 𝕄)
      ⊢ iprop((dat1 Vd c).arrays (fun w => V (Pipeline.arrRef spec1 w)) ∗ Pipeline.unscopedRest (Ix := Unit) (Name := ℕ) (U := UR sig nD τ) (Lvl := ℕ) spec1 c V) := by
  classical
  -- the unscoped buffers are the two arrays' buffers, each whole at the full share, and the rest
  unfold unscopedBufs Pipeline.unscopedRest
  rw [bigSep_sdiff_split shares1_image_sub, bigSep_eq_bigSepL_of_eq [main_v4, main_v5] shares1_image (by decide), shares1_arrays_eq]
  show iprop(((((c : Thread nD τ).loc main_v4) ↦{fullShare} V main_v4) ∗ (((c : Thread nD τ).loc main_v5) ↦{fullShare} V main_v5)) ∗ _)
    ⊢ iprop(((((c : Thread nD τ).loc main_v4) ↦{fullShare.left} V main_v4) ∗ (((c : Thread nD τ).loc main_v4) ↦{fullShare.right.left} V main_v4)
      ∗ (((c : Thread nD τ).loc main_v4) ↦{fullShare.right.right} V main_v4) ∗ (((c : Thread nD τ).loc main_v5) ↦{fullShare} V main_v5)) ∗ _)
  iintro ⟨⟨H4, H5⟩, Hr⟩
  -- the projection's full share: its left half, and the two halves of its right half
  ihave H4 := (pointsTo_share (PosShare.mem_left_op_right fullShare)).1 $$ H4
  icases H4 with ⟨Hl, Hrr⟩
  ihave Hrr := (pointsTo_share (PosShare.mem_left_op_right fullShare.right)).1 $$ Hrr
  icases Hrr with ⟨Hrl, Hrr⟩
  isplitr [Hr]; swap; · iexact Hr
  isplitl [Hl]; · iexact Hl
  isplitl [Hrl]; · iexact Hrl
  isplitl [Hrr]; · iexact Hrr
  iexact H5

/-- EXIT: the region's arrays at contents F and the unscoped rest at V are the core's unscoped buffers at any
    valuation V' that has the arrays at F and agrees with V off them. -/
theorem unscopedBufs_of_arrays1 (Vd : (c : Dev nD) → (b : Ref sig .tc) → Buf (Elt F) ((c : Thread nD τ).loc b)) (c : Dev nD)
    (V V' : (b : Ref sig .tc) → Buf (Elt F) ((c : Thread nD τ).loc b))
    (G : (w : Fin cfg1.W) → Buf (Elt F) (((cfg1.win w).arr.view.loc (c : Thread nD τ))))
    (hG : ∀ w, G w = V' (Pipeline.arrRef spec1 w))
    (hrest : ∀ b, b ∉ Finset.univ.image (Pipeline.arrRef spec1) → V' b = V b) :
    iprop((dat1 Vd c).arrays G ∗ Pipeline.unscopedRest (Ix := Unit) (Name := ℕ) (U := UR sig nD τ) (Lvl := ℕ) spec1 c V)
      ⊢ (unscopedBufs c V' : sProp 𝕄) := by
  classical
  -- off the arrays V' is V, so the rest at V is the rest at V'
  have hr : (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [hr, shares1_arrays_eq, hG 0, hG 1, hG 2, hG 3]
  unfold unscopedBufs Pipeline.unscopedRest
  rw [bigSep_sdiff_split shares1_image_sub, bigSep_eq_bigSepL_of_eq [main_v4, main_v5] shares1_image (by decide)]
  show iprop(((((c : Thread nD τ).loc main_v4) ↦{fullShare.left} V' main_v4) ∗ (((c : Thread nD τ).loc main_v4) ↦{fullShare.right.left} V' main_v4)
      ∗ (((c : Thread nD τ).loc main_v4) ↦{fullShare.right.right} V' main_v4) ∗ (((c : Thread nD τ).loc main_v5) ↦{fullShare} V' main_v5)) ∗ _)
    ⊢ iprop(((((c : Thread nD τ).loc main_v4) ↦{fullShare} V' main_v4) ∗ (((c : Thread nD τ).loc main_v5) ↦{fullShare} V' main_v5)) ∗ _)
  iintro ⟨⟨Hl, Hrl, Hrr, H5⟩, Hr⟩
  -- the three parts of the projection's share join: the right half's halves, then the two halves
  ihave Hrr := (pointsTo_share (PosShare.mem_left_op_right fullShare.right)).2 $$ [Hrl Hrr]
  · isplitl [Hrl] <;> iassumption
  ihave H4 := (pointsTo_share (PosShare.mem_left_op_right fullShare)).2 $$ [Hl Hrr]
  · isplitl [Hl] <;> iassumption
  isplitr [Hr]; swap; · iexact Hr
  isplitl [H4]; · iexact H4
  iexact H5

end Cert.Kernel.Fr

end
-- ==== Proof.KRun.lean ====
/-
  The whole run of @main at any float instance: a stretch of host operations (transpose and narrow the weight, reshape
  x), the projection region, one more host operation (reshape the projection to [8, 2048, 3072]), the attention region.
  The contents of the core's unscoped buffers at the four boundaries are a fold from the launch memory: a host stretch
  applies its operations, a region replaces its output array by what its write-backs leave. Every weakly fair execution
  terminates with every unscoped buffer at the last of these contents; the three argument arrays are never written.
-/
import proofs.«406627_j7318624272435_3_alg».proof.Proof.KRegion0
import proofs.«406627_j7318624272435_3_alg».proof.Proof.KRegion1
import proofs.«406627_j7318624272435_3_alg».proof.Proof.KShares1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its output array at what the write-backs leave, every other buffer as entered. -/
def W2 (c : Dev nD) : Valuation τ sig (Elt F) :=
  Function.update (W1 m ρ c) (Proc.devRef .tc main_v3) ((dat0 (V1 m ρ) c).arrAt 3 cfg0.N)
abbrev V2 : (c : Dev nD) → (b : Ref sig .tc) → Buf (Elt F) ((c : Thread nD τ).loc b) := fun c b => W2 m ρ c b
theorem W2_out (c : Dev nD) : W2 m ρ c (Proc.devRef .tc main_v3) = (dat0 (V1 m ρ) c).arrAt 3 cfg0.N := by
  unfold W2; exact Function.update_self ..
theorem W2_of_ne (c : Dev nD) (b : Ref sig .tc) (hb : b ≠ main_v3) :
    W2 m ρ c (Proc.devRef .tc b) = W1 m ρ c (Proc.devRef .tc b) := by
  unfold W2; exact Function.update_of_ne (StableHlo.devRef_ne_of_ne hb) ..
/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its output array at what the write-backs leave, every other buffer as entered. -/
def W4 (c : Dev nD) : Valuation τ sig (Elt F) :=
  Function.update (W3 m ρ c) (Proc.devRef .tc main_v5) ((dat1 (V3 m ρ) c).arrAt 3 cfg1.N)
abbrev V4 : (c : Dev nD) → (b : Ref sig .tc) → Buf (Elt F) ((c : Thread nD τ).loc b) := fun c b => W4 m ρ c b
theorem W4_out (c : Dev nD) : W4 m ρ c (Proc.devRef .tc main_v5) = (dat1 (V3 m ρ) c).arrAt 3 cfg1.N := by
  unfold W4; exact Function.update_self ..
theorem W4_of_ne (c : Dev nD) (b : Ref sig .tc) (hb : b ≠ main_v5) :
    W4 m ρ c (Proc.devRef .tc b) = W3 m ρ c (Proc.devRef .tc b) := by
  unfold W4; exact Function.update_of_ne (StableHlo.devRef_ne_of_ne hb) ..

/-- At a region's exit each of its arrays holds what the pipeline leaves — an input array what it held at entry — and
    every other buffer what it held at entry. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c main_v2 (by decide)).symm
  | ⟨1, _⟩ => exact (((dat0 (V1 m ρ) c).arrAt_in 1 rfl _).trans (A_eq0 (V1 m ρ) c 1)).trans (W2_of_ne m ρ c main_v1 (by decide)).symm
  | ⟨2, _⟩ => exact (((dat0 (V1 m ρ) c).arrAt_in 2 rfl _).trans (A_eq0 (V1 m ρ) c 2)).trans (W2_of_ne m ρ c main_arg2 (by decide)).symm
  | ⟨3, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)
theorem hF1 (c : Dev nD) (w : Fin cfg1.W) : (dat1 (V3 m ρ) c).arrAt w cfg1.N = V4 m ρ c (Pipeline.arrRef spec1 w) := by
  match w with
  | ⟨0, _⟩ => exact (((dat1 (V3 m ρ) c).arrAt_in 0 rfl _).trans (A_eq1 (V3 m ρ) c 0)).trans (W4_of_ne m ρ c main_v4 (by decide)).symm
  | ⟨1, _⟩ => exact (((dat1 (V3 m ρ) c).arrAt_in 1 rfl _).trans (A_eq1 (V3 m ρ) c 1)).trans (W4_of_ne m ρ c main_v4 (by decide)).symm
  | ⟨2, _⟩ => exact (((dat1 (V3 m ρ) c).arrAt_in 2 rfl _).trans (A_eq1 (V3 m ρ) c 2)).trans (W4_of_ne m ρ c main_v4 (by decide)).symm
  | ⟨3, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. Its three
    input windows share the projection's array, whose full share is dealt among them at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) :=
      arrays1_of_unscopedBufs (F := F) (V3 m ρ) c (V3 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) :=
      unscopedBufs_of_arrays1 (F := F) (V3 m ρ) c (V3 m ρ c) (V4 m ρ c) ((dat1 (V3 m ρ) c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Fr

end
-- ==== Proof.KRunArgs.lean ====
/-
  The three argument arrays end as launched: no host operation writes one, and each region changes only its own output
  array — so the fold of contents through @main, read at an argument's buffer, walks back to the launch memory. With the
  run, that is the program's frame at any float instance.
-/
import proofs.«406627_j7318624272435_3_alg».proof.Proof.KRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- The frame: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Fr

end
-- ==== Proof.Region0.lean ====
/-
  The projection region (the first pallas_call), at any float instance and at any contents V of the core's buffers
  when the region is entered. At grid point t the body is handed the block of 512 rows of the reshaped x, the whole
  transposed weight and the whole bias, and leaves in the output window's buffer the one whole-block store of
  its payload: the 512×3072 block of  x·Wᵀ + bias. The proof data name that per point; the invariant is the untouched
  scoped rest; nothing is owed.
-/
import proofs.«406627_j7318624272435_3_alg».proof.Proof.Gen.KernelIdeal.Launch
import proofs.«406627_j7318624272435_3_alg».proof.Proof.Gen.KernelIdeal.Skeleton
import proofs.«406627_j7318624272435_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, its
    block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0
abbrev r0_o : Rect S512x3072 := Rect.unit (s := S512x3072) ![0, 0] S512x3072.size inb_S512x3072_S512x3072_0_0

/-! ## What the body leaves in the output window's buffer -/

/-- The output buffer after the body, from the three input blocks: its one store, the payload of the loads. -/
def out0_3 (x0 : Vec F S512x1024 .f32) (x1 : Vec F S1024x3072 .bf16) (x2 : Vec F S3072 .f32) : Vec F S512x3072 .bf16 :=
  View.canon [⟨r0_o, k0_pay1 (View.ld x0 r0_x) (View.ld x1 r0_w) (View.ld x2 r0_b)⟩]

/-- The store takes the whole buffer, so it covers it. -/
theorem cover0_3 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

/-! ## The body's triple -/

set_option maxHeartbeats 1000000 in
/-- The body on whole staging memrefs, the inputs' at contents x0, x1, x2 and the output's at anything, runs to the
    continuation holding the inputs' as they were and the output's at `out0_3` of them. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S3072 .f32) (harg3 : arg3.IsWhole)
    (arg4 : Memref sig .tc .vmem S512x3072 .bf16) (harg4 : arg4.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The region's proof data on core c: the arrays as the region finds them; after the body at point t each input's
    buffer at its block and the output's at `out0_3` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Region1.lean ====
/-
  The attention region (the second pallas_call), at any float instance and at any contents V of the core's buffers when
  the region is entered. Its three input windows read ONE array, the projection: at grid point (b, qi) the body is
  handed the query block (rows 512·qi … of batch b, columns 0–1023), the key block (all rows of batch b, columns
  1024–2047) and the value block (all rows of batch b, columns 2048–3071), and leaves in the output window's buffer the
  one whole-block store of its payload, the normalised weighted sum of the value rows. The array's full share is held in
  three parts, one per input window; the output's array is held outright. The invariant is the untouched scoped
  rest; nothing is owed.
-/
import proofs.«406627_j7318624272435_3_alg».proof.Proof.Gen.KernelIdeal.Launch
import proofs.«406627_j7318624272435_3_alg».proof.Proof.Gen.KernelIdeal.Skeleton
import proofs.«406627_j7318624272435_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, its
    block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev r1_q : Rect S1x512x1024 := Rect.unit (s := S1x512x1024) ![0, 0, 0] S1x512x1024.size inb_S1x512x1024_S1x512x1024_0_0_0
abbrev r1_kv : Rect S1x2048x1024 := Rect.unit (s := S1x2048x1024) ![0, 0, 0] S1x2048x1024.size inb_S1x2048x1024_S1x2048x1024_0_0_0

/-! ## What the body leaves in the output window's buffer -/

/-- The output buffer after the body, from the three input blocks: its one store, the payload of the loads. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_kv) (View.ld x2 r1_kv)⟩]

/-- The store takes the whole buffer, so it covers it. -/
theorem cover1_3 (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

/-! ## The body's triple -/

set_option maxHeartbeats 1000000 in
/-- The body on whole staging memrefs, the inputs' at contents x0, x1, x2 and the output's at anything, runs to the
    continuation holding the inputs' as they were and the output's at `out1_3` of them. -/
theorem sound_kernel1 (c : Dev nD) (E : Set ℕ) (i : grid1.Coords) (arg2 : Memref sig .tc .vmem S1x512x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The region's proof data on core c: the arrays as the region finds them; after the body at point t each input's
    buffer at its block and the output's at `out1_3` of the input blocks; the invariant the scoped rest and the
    generator register, untouched; nothing owed; the projection's full share in three parts, one per input window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem share1_0 (c : Dev nD) : (dat1 V c).share 0 = fullShare.left := by unfold Dat.share; dsimp only [dat1]; rfl
theorem share1_1 (c : Dev nD) : (dat1 V c).share 1 = fullShare.right.left := by unfold Dat.share; dsimp only [dat1]; rfl
theorem share1_2 (c : Dev nD) : (dat1 V c).share 2 = fullShare.right.right := by unfold Dat.share; dsimp only [dat1]; rfl
theorem share1_3 (c : Dev nD) : (dat1 V c).share 3 = fullShare := by unfold Dat.share; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Shares1.lean ====
/-
  The attention region's three input windows read one array, the projection. The region holds that array's full share
  in three parts — the left half, and the two halves of the right half — one per window, and the output's array
  outright. Entering the region, the core's unscoped buffers at contents V are these four holdings, at V's contents,
  beside the unscoped rest; leaving it, four holdings at contents that agree on the shared array join back.
-/
import proofs.«406627_j7318624272435_3_alg».proof.Proof.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The region's windows read two arrays: the projection and the output. -/
theorem shares1_image : Finset.univ.image (Pipeline.arrRef spec1) = [main_v4, main_v5].toFinset := by decide

/-- Both are unscoped references. -/
theorem shares1_image_sub : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

/-- The region's arrays at contents G, window by window: each a whole buffer at its window's share. -/
theorem shares1_arrays_eq (Vd : (c : Dev nD) → (b : Ref sig .tc) → Buf (Elt F) ((c : Thread nD τ).loc b)) (c : Dev nD)
    (G : (w : Fin cfg1.W) → Buf (Elt F) (((cfg1.win w).arr.view.loc (c : Thread nD τ)))) :
    ((dat1 Vd c).arrays G : sProp 𝕄)
      = iprop((((c : Thread nD τ).loc (Pipeline.arrRef spec1 0)) ↦{fullShare.left} G 0)
        ∗ (((c : Thread nD τ).loc (Pipeline.arrRef spec1 1)) ↦{fullShare.right.left} G 1)
        ∗ (((c : Thread nD τ).loc (Pipeline.arrRef spec1 2)) ↦{fullShare.right.right} G 2)
        ∗ (((c : Thread nD τ).loc (Pipeline.arrRef spec1 3)) ↦{fullShare} G 3)) := by
  have h : ((dat1 Vd c).arrays G : sProp 𝕄)
      = bigSep Finset.univ fun w => (((c : Thread nD τ).loc (Pipeline.arrRef spec1 w)) ↦{(dat1 Vd c).share w} G w : sProp 𝕄) := by
    unfold Dat.arrays
    exact bigSep_congr fun w _ => by rw [(arr_whole1 w).set_eq_univ]
  rw [h, bigSep_W1, share1_0, share1_1, share1_2, share1_3]

/-- ENTRY: the core's unscoped buffers at contents V are the region's arrays at V's contents, the projection's
    full share dealt in three, and the unscoped rest. -/
theorem arrays1_of_unscopedBufs (Vd : (c : Dev nD) → (b : Ref sig .tc) → Buf (Elt F) ((c : Thread nD τ).loc b)) (c : Dev nD)
    (V : (b : Ref sig .tc) → Buf (Elt F) ((c : Thread nD τ).loc b)) :
    (unscopedBufs c V : sProp 𝕄)
      ⊢ iprop((dat1 Vd c).arrays (fun w => V (Pipeline.arrRef spec1 w)) ∗ Pipeline.unscopedRest (Ix := Unit) (Name := ℕ) (U := UR sig nD τ) (Lvl := ℕ) spec1 c V) := by
  classical
  -- the unscoped buffers are the two arrays' buffers, each whole at the full share, and the rest
  unfold unscopedBufs Pipeline.unscopedRest
  rw [bigSep_sdiff_split shares1_image_sub, bigSep_eq_bigSepL_of_eq [main_v4, main_v5] shares1_image (by decide), shares1_arrays_eq]
  show iprop(((((c : Thread nD τ).loc main_v4) ↦{fullShare} V main_v4) ∗ (((c : Thread nD τ).loc main_v5) ↦{fullShare} V main_v5)) ∗ _)
    ⊢ iprop(((((c : Thread nD τ).loc main_v4) ↦{fullShare.left} V main_v4) ∗ (((c : Thread nD τ).loc main_v4) ↦{fullShare.right.left} V main_v4)
      ∗ (((c : Thread nD τ).loc main_v4) ↦{fullShare.right.right} V main_v4) ∗ (((c : Thread nD τ).loc main_v5) ↦{fullShare} V main_v5)) ∗ _)
  iintro ⟨⟨H4, H5⟩, Hr⟩
  -- the projection's full share: its left half, and the two halves of its right half
  ihave H4 := (pointsTo_share (PosShare.mem_left_op_right fullShare)).1 $$ H4
  icases H4 with ⟨Hl, Hrr⟩
  ihave Hrr := (pointsTo_share (PosShare.mem_left_op_right fullShare.right)).1 $$ Hrr
  icases Hrr with ⟨Hrl, Hrr⟩
  isplitr [Hr]; swap; · iexact Hr
  isplitl [Hl]; · iexact Hl
  isplitl [Hrl]; · iexact Hrl
  isplitl [Hrr]; · iexact Hrr
  iexact H5

/-- EXIT: the region's arrays at contents F and the unscoped rest at V are the core's unscoped buffers at any
    valuation V' that has the arrays at F and agrees with V off them. -/
theorem unscopedBufs_of_arrays1 (Vd : (c : Dev nD) → (b : Ref sig .tc) → Buf (Elt F) ((c : Thread nD τ).loc b)) (c : Dev nD)
    (V V' : (b : Ref sig .tc) → Buf (Elt F) ((c : Thread nD τ).loc b))
    (G : (w : Fin cfg1.W) → Buf (Elt F) (((cfg1.win w).arr.view.loc (c : Thread nD τ))))
    (hG : ∀ w, G w = V' (Pipeline.arrRef spec1 w))
    (hrest : ∀ b, b ∉ Finset.univ.image (Pipeline.arrRef spec1) → V' b = V b) :
    iprop((dat1 Vd c).arrays G ∗ Pipeline.unscopedRest (Ix := Unit) (Name := ℕ) (U := UR sig nD τ) (Lvl := ℕ) spec1 c V)
      ⊢ (unscopedBufs c V' : sProp 𝕄) := by
  classical
  -- off the arrays V' is V, so the rest at V is the rest at V'
  have hr : (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [hr, shares1_arrays_eq, hG 0, hG 1, hG 2, hG 3]
  unfold unscopedBufs Pipeline.unscopedRest
  rw [bigSep_sdiff_split shares1_image_sub, bigSep_eq_bigSepL_of_eq [main_v4, main_v5] shares1_image (by decide)]
  show iprop(((((c : Thread nD τ).loc main_v4) ↦{fullShare.left} V' main_v4) ∗ (((c : Thread nD τ).loc main_v4) ↦{fullShare.right.left} V' main_v4)
      ∗ (((c : Thread nD τ).loc main_v4) ↦{fullShare.right.right} V' main_v4) ∗ (((c : Thread nD τ).loc main_v5) ↦{fullShare} V' main_v5)) ∗ _)
    ⊢ iprop(((((c : Thread nD τ).loc main_v4) ↦{fullShare} V' main_v4) ∗ (((c : Thread nD τ).loc main_v5) ↦{fullShare} V' main_v5)) ∗ _)
  iintro ⟨⟨Hl, Hrl, Hrr, H5⟩, Hr⟩
  -- the three parts of the projection's share join: the right half's halves, then the two halves
  ihave Hrr := (pointsTo_share (PosShare.mem_left_op_right fullShare.right)).2 $$ [Hrl Hrr]
  · isplitl [Hrl] <;> iassumption
  ihave H4 := (pointsTo_share (PosShare.mem_left_op_right fullShare)).2 $$ [Hl Hrr]
  · isplitl [Hl] <;> iassumption
  isplitr [Hr]; swap; · iexact Hr
  isplitl [H4]; · iexact H4
  iexact H5

end Cert.KernelIdeal.Fr

end
-- ==== Proof.Run.lean ====
/-
  The whole run of @main at any float instance: a stretch of host operations (transpose and narrow the weight, reshape
  x), the projection region, one more host operation (reshape the projection to [8, 2048, 3072]), the attention region.
  The contents of the core's unscoped buffers at the four boundaries are a fold from the launch memory: a host stretch
  applies its operations, a region replaces its output array by what its write-backs leave. Every weakly fair execution
  terminates with every unscoped buffer at the last of these contents; the three argument arrays are never written.
-/
import proofs.«406627_j7318624272435_3_alg».proof.Proof.Region0
import proofs.«406627_j7318624272435_3_alg».proof.Proof.Region1
import proofs.«406627_j7318624272435_3_alg».proof.Proof.Shares1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its output array at what the write-backs leave, every other buffer as entered. -/
def W2 (c : Dev nD) : Valuation τ sig (Elt F) :=
  Function.update (W1 m ρ c) (Proc.devRef .tc main_v3) ((dat0 (V1 m ρ) c).arrAt 3 cfg0.N)
abbrev V2 : (c : Dev nD) → (b : Ref sig .tc) → Buf (Elt F) ((c : Thread nD τ).loc b) := fun c b => W2 m ρ c b
theorem W2_out (c : Dev nD) : W2 m ρ c (Proc.devRef .tc main_v3) = (dat0 (V1 m ρ) c).arrAt 3 cfg0.N := by
  unfold W2; exact Function.update_self ..
theorem W2_of_ne (c : Dev nD) (b : Ref sig .tc) (hb : b ≠ main_v3) :
    W2 m ρ c (Proc.devRef .tc b) = W1 m ρ c (Proc.devRef .tc b) := by
  unfold W2; exact Function.update_of_ne (StableHlo.devRef_ne_of_ne hb) ..
/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its output array at what the write-backs leave, every other buffer as entered. -/
def W4 (c : Dev nD) : Valuation τ sig (Elt F) :=
  Function.update (W3 m ρ c) (Proc.devRef .tc main_v5) ((dat1 (V3 m ρ) c).arrAt 3 cfg1.N)
abbrev V4 : (c : Dev nD) → (b : Ref sig .tc) → Buf (Elt F) ((c : Thread nD τ).loc b) := fun c b => W4 m ρ c b
theorem W4_out (c : Dev nD) : W4 m ρ c (Proc.devRef .tc main_v5) = (dat1 (V3 m ρ) c).arrAt 3 cfg1.N := by
  unfold W4; exact Function.update_self ..
theorem W4_of_ne (c : Dev nD) (b : Ref sig .tc) (hb : b ≠ main_v5) :
    W4 m ρ c (Proc.devRef .tc b) = W3 m ρ c (Proc.devRef .tc b) := by
  unfold W4; exact Function.update_of_ne (StableHlo.devRef_ne_of_ne hb) ..

/-- At a region's exit each of its arrays holds what the pipeline leaves — an input array what it held at entry — and
    every other buffer what it held at entry. -/
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c main_v2 (by decide)).symm
  | ⟨1, _⟩ => exact (((dat0 (V1 m ρ) c).arrAt_in 1 rfl _).trans (A_eq0 (V1 m ρ) c 1)).trans (W2_of_ne m ρ c main_v1 (by decide)).symm
  | ⟨2, _⟩ => exact (((dat0 (V1 m ρ) c).arrAt_in 2 rfl _).trans (A_eq0 (V1 m ρ) c 2)).trans (W2_of_ne m ρ c main_arg2 (by decide)).symm
  | ⟨3, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨3, Finset.mem_univ _, e.symm⟩)
theorem hF1 (c : Dev nD) (w : Fin cfg1.W) : (dat1 (V3 m ρ) c).arrAt w cfg1.N = V4 m ρ c (Pipeline.arrRef spec1 w) := by
  match w with
  | ⟨0, _⟩ => exact (((dat1 (V3 m ρ) c).arrAt_in 0 rfl _).trans (A_eq1 (V3 m ρ) c 0)).trans (W4_of_ne m ρ c main_v4 (by decide)).symm
  | ⟨1, _⟩ => exact (((dat1 (V3 m ρ) c).arrAt_in 1 rfl _).trans (A_eq1 (V3 m ρ) c 1)).trans (W4_of_ne m ρ c main_v4 (by decide)).symm
  | ⟨2, _⟩ => exact (((dat1 (V3 m ρ) c).arrAt_in 2 rfl _).trans (A_eq1 (V3 m ρ) c 2)).trans (W4_of_ne m ρ c main_v4 (by decide)).symm
  | ⟨3, _⟩ => exact (W4_out m ρ c).symm
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. Its three
    input windows share the projection's array, whose full share is dealt among them at entry and joined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) :=
      arrays1_of_unscopedBufs (F := F) (V3 m ρ) c (V3 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) :=
      unscopedBufs_of_arrays1 (F := F) (V3 m ρ) c (V3 m ρ c) (V4 m ρ c) ((dat1 (V3 m ρ) c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Fr

end
-- ==== Proof.RunArgs.lean ====
/-
  The three argument arrays end as launched: no host operation writes one, and each region changes only its own output
  array — so the fold of contents through @main, read at an argument's buffer, walks back to the launch memory. With the
  run, that is the program's frame at any float instance.
-/
import proofs.«406627_j7318624272435_3_alg».proof.Proof.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl

/-- The frame: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Fr

end
-- ==== Proof.Spec.lean ====
/-
  Scaled dot-product attention over the fused projection, as functions of the three argument arrays on the
  extended reals. The projection's entry (b, n, f) is  Σ_e x[b,n,e]·w[f,e] + bias[f];  its three column blocks of
  width 1024 are the queries, the keys and the values. For one query row q, keys K and values V the output entry e
  is written twice: as the kernel computes it,
      ( Σ_j exp(s_j − max s) · V[j,e] ) / ( Σ_j exp(s_j − max s) ),   s_j = Σ_d (q_d · c) · K[j,d],
  and as the reference computes it,
      Σ_j ( exp(t_j − max t) / Σ_j' exp(t_j' − max t) ) · V[j,e],      t_j = (Σ_d q_d · K[j,d]) · c'.
  For real entries and c = c' a real number the two agree: the scale leaves the inner sum, and the common
  denominator — a sum of exponentials, positive and finite — leaves the outer one.
-/
import Idealize.ShloMosaic.PureOps.Ideal
import Idealize.ShloMosaic.Lib.ValueIdx

noncomputable section

namespace Cert.Attn

open Idealize.ShloMosaic Idealize.ShloMosaic.ValueIdx

abbrev SX : Shape := ⟨3, ![8, 2048, 1024]⟩
abbrev SW : Shape := ⟨2, ![3072, 1024]⟩
abbrev SB : Shape := ⟨1, ![3072]⟩
abbrev SQ : Shape := ⟨3, ![8, 2048, 3072]⟩

/-- The three column blocks of the projection's last axis. -/
def colQ (d : Fin 1024) : Fin 3072 := ⟨d.val, by omega⟩
def colK (d : Fin 1024) : Fin 3072 := ⟨1024 + d.val, by omega⟩
def colV (d : Fin 1024) : Fin 3072 := ⟨2048 + d.val, by omega⟩

/-- The fused projection: entry (b, n, f) is the row x[b,n,·] against the row w[f,·], plus the bias at f. -/
def qkv (x : SX.Idx → EReal) (w : SW.Idx → EReal) (bias : SB.Idx → EReal) : SQ.Idx → EReal := fun i =>
  (∑ e : Fin 1024, x (ix3 (n0 := 8) (n1 := 2048) ⟨(i 0).val, (i 0).isLt⟩ ⟨(i 1).val, (i 1).isLt⟩ e)
      * w (ix2 (n0 := 3072) ⟨(i 2).val, (i 2).isLt⟩ e))
    + bias (ix1 (n := 3072) ⟨(i 2).val, (i 2).isLt⟩)

/-- The kernel's scale: the bf16 pattern of 2⁻⁵. -/
def cKernel : EReal := Ideal.ofBits .bf16 0x3D00#16
/-- The reference's scale: one over the square root of 1024. -/
def cRef : EReal := Ideal.div (Ideal.ofBits .f32 0x3F800000#32) (Ideal.sqrt (Ideal.ofBits .f32 0x44800000#32))

/-- The scores of one query row as the kernel forms them: the scale inside the sum. -/
def scoreK (c : EReal) (q : Fin 1024 → EReal) (K : Fin 2048 → Fin 1024 → EReal) (j : Fin 2048) : EReal :=
  ∑ d : Fin 1024, (q d * c) * K j d
/-- The scores as the reference forms them: the scale outside the sum. -/
def scoreR (c : EReal) (q : Fin 1024 → EReal) (K : Fin 2048 → Fin 1024 → EReal) (j : Fin 2048) : EReal :=
  (∑ d : Fin 1024, q d * K j d) * c

/-- The shifted exponentials of a row of scores: exp (s_j − max s). -/
def expShift (s : Fin 2048 → EReal) (j : Fin 2048) : EReal :=
  Ideal.exp (s j - (Finset.univ : Finset (Fin 2048)).fold max ⊥ s)

/-- One output entry as the kernel computes it: the weighted sum of the value rows, then ONE division. -/
def kernelRow (c : EReal) (q : Fin 1024 → EReal) (K V : Fin 2048 → Fin 1024 → EReal) (e : Fin 1024) : EReal :=
  Ideal.div (∑ j : Fin 2048, expShift (scoreK c q K) j * V j e) (∑ j : Fin 2048, expShift (scoreK c q K) j)

/-- One output entry as the reference computes it: each weight divided, then the sum. -/
def refRow (c : EReal) (q : Fin 1024 → EReal) (K V : Fin 2048 → Fin 1024 → EReal) (e : Fin 1024) : EReal :=
  ∑ j : Fin 2048, Ideal.div (expShift (scoreR c q K) j) (∑ j' : Fin 2048, expShift (scoreR c q K) j') * V j e

/-- Query row n, key row j and value row j of batch b, read off a projection array. -/
def qRow (P : SQ.Idx → EReal) (b : Fin 8) (n : Fin 2048) (d : Fin 1024) : EReal := P (ix3 b n (colQ d))
def kRow (P : SQ.Idx → EReal) (b : Fin 8) (j : Fin 2048) (d : Fin 1024) : EReal := P (ix3 b j (colK d))
def vRow (P : SQ.Idx → EReal) (b : Fin 8) (j : Fin 2048) (d : Fin 1024) : EReal := P (ix3 b j (colV d))

/-- The attention of a projection array, the kernel's way. -/
def attnK (P : SQ.Idx → EReal) : SX.Idx → EReal := fun i =>
  kernelRow cKernel (qRow P ⟨(i 0).val, (i 0).isLt⟩ ⟨(i 1).val, (i 1).isLt⟩) (kRow P ⟨(i 0).val, (i 0).isLt⟩) (vRow P ⟨(i 0).val, (i 0).isLt⟩)
    ⟨(i 2).val, (i 2).isLt⟩
/-- The attention of a projection array, the reference's way. -/
def attnR (P : SQ.Idx → EReal) : SX.Idx → EReal := fun i =>
  refRow cRef (qRow P ⟨(i 0).val, (i 0).isLt⟩ ⟨(i 1).val, (i 1).isLt⟩) (kRow P ⟨(i 0).val, (i 0).isLt⟩) (vRow P ⟨(i 0).val, (i 0).isLt⟩)
    ⟨(i 2).val, (i 2).isLt⟩

/-- The whole result, the kernel's way and the reference's way. -/
def kernelOut (x : SX.Idx → EReal) (w : SW.Idx → EReal) (bias : SB.Idx → EReal) : SX.Idx → EReal := attnK (qkv x w bias)
def refOut (x : SX.Idx → EReal) (w : SW.Idx → EReal) (bias : SB.Idx → EReal) : SX.Idx → EReal := attnR (qkv x w bias)

end Cert.Attn

end
-- ==== Proof.Value0.lean ====
/-
  What the projection region leaves in its output array, at the ideal instance, as one function of the arrays the
  region is entered with: entry (r, f) is the row r of the reshaped x against the column f of the transposed weight,
  plus the bias at f. Point t writes the block of rows 512·t … 512·t + 511; the 32 blocks cover the array.
-/
import proofs.«406627_j7318624272435_3_alg».proof.Proof.Region0
import proofs.«406627_j7318624272435_3_alg».proof.Proof.Region1
import proofs.«406627_j7318624272435_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-- A 16384×1024 matrix times a 1024×3072 matrix plus a row of 3072 biases, entry by entry. -/
def proj0 (X : S16384x1024.Idx → EReal) (Wt : S1024x3072.Idx → EReal) (B : S3072.Idx → EReal) : S16384x3072.Idx → EReal := fun i =>
  (∑ e : Fin 1024, X (ix2 (n0 := 16384) ⟨(i 0).val, (i 0).isLt⟩ e) * Wt (ix2 (n1 := 3072) e ⟨(i 1).val, (i 1).isLt⟩))
    + B (ix1 (n := 3072) ⟨(i 1).val, (i 1).isLt⟩)

/-! ## The product's operand indices: the row of the left factor, the column of the right -/

theorem lhs_rows_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_rows_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_cols_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_cols_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into the zero block, entry (p, f): the row p of the left factor against the column f of the right. -/
theorem product_apply (l : FVec Ideal S512x1024 .bf16) (r : FVec Ideal S1024x3072 .bf16) (p : Fin 512) (f : Fin 3072) :
    matmul dot_S512x1024_S1024x3072_S512x3072_1_0_0_1_n_n none l r (constant (F := Ideal) S512x3072 .f32 0x00000000#32) (ix2 p f)
      = ∑ e : Fin 1024, l (ix2 p e) * r (ix2 e f) := by
  simp only [matmul]
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p f) ((ValueIdx.contrEquiv1 dot_S512x1024_S1024x3072_S512x3072_1_0_0_1_n_n 1024 rfl rfl).symm k) = ix2 p k := funext fun a => Fin.ext (by
    match a with
    | ⟨0, _⟩ => exact lhs_rows_0 _ _
    | ⟨1, _⟩ => exact (lhs_rows_1 _ _).trans hk)
  have er : dot_S512x1024_S1024x3072_S512x3072_1_0_0_1_n_n.rhsIdx (ix2 p f) ((ValueIdx.contrEquiv1 dot_S512x1024_S1024x3072_S512x3072_1_0_0_1_n_n 1024 rfl rfl).symm k) = ix2 k f := funext fun a => Fin.ext (by
    match a with
    | ⟨0, _⟩ => exact (rhs_cols_0 _ _).trans hk
    | ⟨1, _⟩ => exact rhs_cols_1 _ _)
  rw [el, er]

/-- The bias row laid under every row of the block: entry (p, f) is the bias at f. -/
theorem bias_apply (b : FVec Ideal S3072 .f32) (p : Fin 512) (f : Fin 3072) :
    broadcastTo S512x3072 (shapeCast S1x3072 b shapeCasts_S3072_S1x3072) broadcasts_S1x3072_S512x3072 (ix2 p f) = b (ix1 f) := by
  refine (broadcastTo_apply _ broadcasts_S1x3072_S512x3072 (ix2 p f) (ix2 (n0 := 1) (n1 := 3072) ⟨0, Nat.one_pos⟩ f) (fun a => ?_)).trans ?_
  · match a with
    | ⟨0, _⟩ => rfl
    | ⟨1, _⟩ => show f.val = if (3072 : Nat) = 1 then 0 else f.val; rw [if_neg (by decide)]
  · refine shapeCast_apply b shapeCasts_S3072_S1x3072 (ix2 (n0 := 1) (n1 := 3072) ⟨0, Nat.one_pos⟩ f) (ix1 f) ?_
    rw [Shape.rowMajor_val_one, Shape.rowMajor_val_two]
    show f.val = 0 * 3072 + f.val
    omega

/-- The body's payload, entry (p, f): the row p of the block of x against the column f of the weight, plus the bias at f. -/
theorem payload_apply (x0 : Vec Ideal S512x1024 .f32) (x1 : Vec Ideal S1024x3072 .bf16) (x2 : Vec Ideal S3072 .f32) (p : Fin 512) (f : Fin 3072) :
    k0_pay1 (F := Ideal) x0 x1 x2 (ix2 p f) = (∑ e : Fin 1024, x0 (ix2 p e) * x1 (ix2 e f)) + x2 (ix1 f) := by
  unfold k0_pay1
  rw [truncf_apply, addf_apply, product_apply, bias_apply]
  simp only [shapeCast_self, truncf_apply]

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: the block of x and the output's block move with the point along the rows; the weight
    and the bias stay whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- One entry of a block: when the block of x holds the row of X, the weight block the column of Wt and the bias block
    the bias at the entry's array index i, the payload at (p, f) is the projection at i. -/
theorem block_entry (x0 : Vec Ideal S512x1024 .f32) (x1 : Vec Ideal S1024x3072 .bf16) (x2 : Vec Ideal S3072 .f32)
    (X : S16384x1024.Idx → EReal) (Wt : S1024x3072.Idx → EReal) (B : S3072.Idx → EReal)
    (p : Fin 512) (f : Fin 3072) (i : S16384x3072.Idx)
    (hx : ∀ e : Fin 1024, x0 (ix2 p e) = X (ix2 (n0 := 16384) ⟨(i 0).val, (i 0).isLt⟩ e))
    (hw : ∀ e : Fin 1024, x1 (ix2 e f) = Wt (ix2 (n1 := 3072) e ⟨(i 1).val, (i 1).isLt⟩))
    (hb : x2 (ix1 f) = B (ix1 (n := 3072) ⟨(i 1).val, (i 1).isLt⟩)) :
    k0_pay1 (F := Ideal) x0 x1 x2 (ix2 p f) = proj0 X Wt B i := by
  rw [payload_apply, hb]
  unfold proj0
  exact congrArg (· + _) (Finset.sum_congr rfl fun e _ => by rw [hx e, hw e])

section
variable (V : (c : Dev nD) → (b : Ref sig .tc) → Buf (Elt Ideal) ((c : Thread nD τ).loc b))

/-- One entry of what point t leaves: entry (p, f) of its payload over the three blocks at t is the projection of the
    arrays at row 512·t + p and column f. -/
theorem point_entry (c : Dev nD) (t : Fin cfg0.N) (p : Fin 512) (f : Fin 3072) (i : S16384x3072.Idx)
    (hi0 : (i 0).val = t.val * 512 + p.val) (hi1 : (i 1).val = f.val) :
    k0_pay1 (F := Ideal) (iblk0 V c 0 t) (iblk0 V c 1 t) (iblk0 V c 2 t) (ix2 p f)
      = proj0 (V c main_v2) (V c main_v1) (V c main_arg2) i := by
  obtain ⟨e0, e1, e2, e3, e4, e5, e6⟩ := index_facts t
  refine block_entry (iblk0 V c 0 t) (iblk0 V c 1 t) (iblk0 V c 2 t) (V c main_v2) (V c main_v1) (V c main_arg2) p f i ?_ ?_ ?_
  · intro e
    show V c main_v2 (((cfg0.win 0).blk t).view.emb (ix2 p e)) = V c main_v2 (ix2 (n0 := 16384) ⟨(i 0).val, (i 0).isLt⟩ e)
    refine congrArg (V c main_v2) (funext fun a => Fin.ext ?_)
    match a with
    | ⟨0, _⟩ => show win0_0.index t (0 : Fin 2) * 512 + 1 * p.val = (i 0).val; omega
    | ⟨1, _⟩ => show win0_0.index t (1 : Fin 2) * 1024 + 1 * e.val = e.val; omega
  · intro e
    show V c main_v1 (((cfg0.win 1).blk t).view.emb (ix2 e f)) = V c main_v1 (ix2 (n1 := 3072) e ⟨(i 1).val, (i 1).isLt⟩)
    refine congrArg (V c main_v1) (funext fun a => Fin.ext ?_)
    match a with
    | ⟨0, _⟩ => show win0_1.index t (0 : Fin 2) * 1024 + 1 * e.val = e.val; omega
    | ⟨1, _⟩ => show win0_1.index t (1 : Fin 2) * 3072 + 1 * f.val = (i 1).val; omega
  · show V c main_arg2 (((cfg0.win 2).blk t).view.emb (ix1 f)) = V c main_arg2 (ix1 (n := 3072) ⟨(i 1).val, (i 1).isLt⟩)
    refine congrArg (V c main_arg2) (funext fun a => Fin.ext ?_)
    match a with
    | ⟨0, _⟩ => show win0_2.index t (0 : Fin 1) * 3072 + 1 * f.val = (i 1).val; omega

/-- What point t writes back is block t of the projection of the arrays as the region finds them. -/
theorem flushed_eq (c : Dev nD) (t : Fin cfg0.N) :
    (dat0 V c).flushed 3 t = ((cfg0.win 3).blk t).view.read (Elt Ideal) (proj0 (V c main_v2) (V c main_v1) (V c main_arg2)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S1024x3072) zeros2, View.ld_unit_zero (S := S3072) zeros1]
  obtain ⟨e0, e1, e2, e3, e4, e5, e6⟩ := index_facts t
  funext j
  have hp : (j 0).val < 512 := (j 0).isLt
  have hf : (j 1).val < 3072 := (j 1).isLt
  show k0_pay1 (F := Ideal) (iblk0 V c 0 t) (iblk0 V c 1 t) (iblk0 V c 2 t) ((win0 3).xinj (grid0.coords t) j)
    = proj0 (V c main_v2) (V c main_v1) (V c main_arg2) (((cfg0.win 3).blk t).view.emb j)
  have hj : (win0 3).xinj (grid0.coords t) j = ix2 (n0 := 512) (n1 := 3072) ⟨(j 0).val, hp⟩ ⟨(j 1).val, hf⟩ :=
    funext fun a => by match a with | ⟨0, _⟩ => rfl | ⟨1, _⟩ => rfl
  refine (congrArg (k0_pay1 (F := Ideal) (iblk0 V c 0 t) (iblk0 V c 1 t) (iblk0 V c 2 t)) hj).trans ?_
  refine point_entry V c t ⟨(j 0).val, hp⟩ ⟨(j 1).val, hf⟩ (((cfg0.win 3).blk t).view.emb j) ?_ ?_
  · show win0_3.index t (0 : Fin 2) * 512 + 1 * (j 0).val = t.val * 512 + (j 0).val; omega
  · show win0_3.index t (1 : Fin 2) * 3072 + 1 * (j 1).val = (j 1).val; omega

/-- An index of the array is in point t's block iff each coordinate is in the block's range on its axis. -/
theorem mem_block (t : Fin cfg0.N) (i : S16384x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- The 32 blocks of 512 rows cover the array: row r is in the block of point r / 512. -/
theorem cover (i : S16384x3072.Idx) : ∃ t : Fin cfg0.N, (cfg0.win 3).flush t = true ∧ i ∈ ((cfg0.win 3).blk t).view.set := by
  have hi0 : (i 0).val < 16384 := (i 0).isLt
  have hi1 : (i 1).val < 3072 := (i 1).isLt
  obtain ⟨t, ht⟩ : ∃ t : Fin cfg0.N, t.val = (i 0).val / 512 := ⟨⟨(i 0).val / 512, by rw [show cfg0.N = 32 from N_0]; omega⟩, rfl⟩
  obtain ⟨e0, e1, e2, e3, e4, e5, e6⟩ := index_facts t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

end

/-- The projection's array after the region, from the region-entry contents V: the matrix product plus the bias. -/
theorem value0 (V : (c : Dev nD) → (b : Ref sig .tc) → Buf (Elt Ideal) ((c : Thread nD τ).loc b)) (c : Dev nD) :
    (dat0 V c).arrAt 3 cfg0.N = proj0 (V c main_v2) (V c main_v1) (V c main_arg2) := by
  exact (dat0 V c).arrAt_eq_of_cover 3 (proj0 (V c main_v2) (V c main_v1) (V c main_arg2)) (fun t _ => flushed_eq V c t) cover

end Cert.KernelIdeal.Val

end
-- ==== Proof.Value1.lean ====
/-
  What the attention region leaves in its output array, at the ideal instance, as one function of the projection array
  the region is entered with: entry (b, n, e) is the kernel's row form — the exponentials of the shifted scaled scores of
  query row n of batch b against every key row, weighting the value rows, divided once by their sum. Point (b, qi)
  writes the block of rows 512·qi … 512·qi + 511 of batch b; the 32 blocks cover the array.

  The steps. (1) The two block products read at an index: entry (i, j) of the score product is Σ_d l[i,d]·r[j,d], entry
  (i, e) of the value product is Σ_j l[i,j]·r[j,e]. (2) The column casts, the lane broadcasts, a row's maximum from −∞ and
  a row's sum, each read at an index. (3) The payload's stages — scores, weights — read at an index, so that the payload
  at (0, i, e) is the row form over the three loaded blocks. (4) At a grid point the three loaded blocks are the query
  rows, the key rows and the value rows of the point's batch in the projection array, so the block the point writes is
  the attention's block there; the blocks tile the result.
-/
import proofs.«406627_j7318624272435_3_alg».proof.Proof.Region0
import proofs.«406627_j7318624272435_3_alg».proof.Proof.Region1
import proofs.«406627_j7318624272435_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-! ## The two products read at an index -/

theorem scoreDot_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem scoreDot_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem scoreDot_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem scoreDot_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The score product into the zero splat: entry (i, j) is the sum over d of l[i,d] · r[j,d]. -/
theorem scoreDot_apply (l : FVec Ideal S512x1024 .bf16) (r : FVec Ideal S2048x1024 .bf16) (i : Fin 512) (j : Fin 2048) :
    matmul dot_S512x1024_S2048x1024_S512x2048_1_1_0_0_n_n none l r (constant (F := Ideal) S512x2048 .f32 0x00000000#32) (ix2 i j)
      = ∑ d : Fin 1024, l (ix2 i d) * r (ix2 j d) := by
  simp only [matmul]
  rw [Ideal.matmul_constant_zero_apply, ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 i j) ((ValueIdx.contrEquiv1 dot_S512x1024_S2048x1024_S512x2048_1_1_0_0_n_n 1024 rfl rfl).symm k) = ix2 i k := funext fun a => Fin.ext (by
    match a with
    | ⟨0, _⟩ => exact scoreDot_lhs_0 _ _
    | ⟨1, _⟩ => exact (scoreDot_lhs_1 _ _).trans hk)
  have er : dot_S512x1024_S2048x1024_S512x2048_1_1_0_0_n_n.rhsIdx (ix2 i j) ((ValueIdx.contrEquiv1 dot_S512x1024_S2048x1024_S512x2048_1_1_0_0_n_n 1024 rfl rfl).symm k) = ix2 j k := funext fun a => Fin.ext (by
    match a with
    | ⟨0, _⟩ => exact scoreDot_rhs_0 _ _
    | ⟨1, _⟩ => exact (scoreDot_rhs_1 _ _).trans hk)
  rw [el, er]

theorem valueDot_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem valueDot_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem valueDot_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem valueDot_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The value product into the zero splat: entry (i, e) is the sum over j of l[i,j] · r[j,e]. -/
theorem valueDot_apply (l : FVec Ideal S512x2048 .bf16) (r : FVec Ideal S2048x1024 .bf16) (i : Fin 512) (e : Fin 1024) :
    matmul dot_S512x2048_S2048x1024_S512x1024_1_0_0_1_n_n none l r (constant (F := Ideal) S512x1024 .f32 0x00000000#32) (ix2 i e)
      = ∑ j : Fin 2048, l (ix2 i j) * r (ix2 j e) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 i e) ((ValueIdx.contrEquiv1 dot_S512x2048_S2048x1024_S512x1024_1_0_0_1_n_n 2048 rfl rfl).symm k) = ix2 i k := funext fun a => Fin.ext (by
    match a with
    | ⟨0, _⟩ => exact valueDot_lhs_0 _ _
    | ⟨1, _⟩ => exact (valueDot_lhs_1 _ _).trans hk)
  have er : dot_S512x2048_S2048x1024_S512x1024_1_0_0_1_n_n.rhsIdx (ix2 i e) ((ValueIdx.contrEquiv1 dot_S512x2048_S2048x1024_S512x1024_1_0_0_1_n_n 2048 rfl rfl).symm k) = ix2 k e := funext fun a => Fin.ext (by
    match a with
    | ⟨0, _⟩ => exact (valueDot_rhs_0 _ _).trans hk
    | ⟨1, _⟩ => exact valueDot_rhs_1 _ _)
  rw [el, er]

/-! ## The layout operations and the lane reductions read at an index -/

/-- A vector of 512 cast to a 512×1 column reads its entry i at (i, u). -/
theorem column_apply {α : Type} (v : S512.Idx → α) (i : Fin 512) (u : Fin 1) :
    shapeCast S512x1 v shapeCasts_S512_S512x1 (ix2 i u) = v (ix1 i) :=
  shapeCast_apply v _ _ _ (by
    have hu : u.val = 0 := by omega
    rw [Shape.rowMajor_val_one, Shape.rowMajor_val_two]
    show i.val = i.val * 1 + u.val
    omega)

/-- A 512×1 column broadcast over 2048 lanes reads the column's entry of the row. -/
theorem spreadKeys_apply {α : Type} (v : S512x1.Idx → α) (i : Fin 512) (j : Fin 2048) :
    broadcastTo S512x2048 v broadcasts_S512x1_S512x2048 (ix2 i j) = v (ix2 i (0 : Fin 1)) := by
  refine broadcastTo_apply v _ (ix2 i j) (ix2 i (0 : Fin 1)) fun ax => ?_
  match ax with
  | ⟨0, _⟩ => rfl
  | ⟨1, _⟩ => rfl

/-- A 512×1 column broadcast over 1024 lanes likewise. -/
theorem spreadCols_apply {α : Type} (v : S512x1.Idx → α) (i : Fin 512) (e : Fin 1024) :
    broadcastTo S512x1024 v broadcasts_S512x1_S512x1024 (ix2 i e) = v (ix2 i (0 : Fin 1)) := by
  refine broadcastTo_apply v _ (ix2 i e) (ix2 i (0 : Fin 1)) fun ax => ?_
  match ax with
  | ⟨0, _⟩ => rfl
  | ⟨1, _⟩ => rfl

/-- The accumulator pattern of the maximum denotes −∞. -/
theorem negInf_f32 : Ideal.ofBits .f32 0xFF800000#32 = (⊥ : EReal) := by
  simp [Ideal.ofBits, Ideal.ieee]

/-- A row's maximum over its 2048 lanes, from −∞. -/
theorem rowMax_apply (s : FVec Ideal S512x2048 .f32) (hφ : FKind.Formats .f32)
    (hacc : (0xFF800000#32 : BitVec 32) = FKind.maximumf.neutral .f32 hφ) (i : Fin 512) :
    multiReduction (F := Ideal) .maximumf [1] S512 s 0xFF800000#32 reduces_S512x2048_S512 hφ hacc (ix1 i)
      = (Finset.univ : Finset (Fin 2048)).fold max ⊥ (fun j => s (ix2 i j)) := by
  refine (Ideal.multiReduction_maximumf_single s 0xFF800000#32 reduces_S512x2048_S512 hφ hacc (ix1 i)).trans ?_
  show (Finset.univ : Finset (Fin 2048)).fold max (Ideal.ofBits .f32 0xFF800000#32) (s ∘ reduces_S512x2048_S512.lift (ix1 i)) = _
  rw [negInf_f32]
  refine congrArg (fun f : Fin 2048 → EReal => (Finset.univ : Finset (Fin 2048)).fold max ⊥ f) (funext fun j => ?_)
  exact congrArg s (funext fun a => Fin.ext (by match a with | ⟨0, _⟩ => rfl | ⟨1, _⟩ => rfl))

/-- A row's sum over its 2048 lanes. -/
theorem rowSum_apply (s : FVec Ideal S512x2048 .f32) (hφ : FKind.Formats .f32)
    (hacc : (0x00000000#32 : BitVec 32) = FKind.add.neutral .f32 hφ) (i : Fin 512) :
    multiReduction (F := Ideal) .add [1] S512 s 0x00000000#32 reduces_S512x2048_S512 hφ hacc (ix1 i)
      = ∑ j : Fin 2048, s (ix2 i j) := by
  refine (Ideal.multiReduction_add_single s 0x00000000#32 reduces_S512x2048_S512 hφ hacc (ix1 i)).trans ?_
  show ∑ j : Fin 2048, s (reduces_S512x2048_S512.lift (ix1 i) j) = _
  refine Finset.sum_congr rfl fun j _ => ?_
  exact congrArg s (funext fun a => Fin.ext (by match a with | ⟨0, _⟩ => rfl | ⟨1, _⟩ => rfl))

/-! ## The payload's stages -/

/-- The block's scores: the scaled query rows against the key rows. -/
def scores (x0 : Vec Ideal S1x512x1024 .bf16) (x1 : Vec Ideal S1x2048x1024 .bf16) : FVec Ideal S512x2048 .f32 :=
  matmul dot_S512x1024_S2048x1024_S512x2048_1_1_0_0_n_n none
    (mulf (shapeCast S512x1024 x0 shapeCasts_S1x512x1024_S512x1024 : FVec Ideal S512x1024 .bf16) (broadcast S512x1024 (Scalar.ofBits (F := Ideal) .bf16 0x3D00#16)))
    (shapeCast S2048x1024 x1 shapeCasts_S1x2048x1024_S2048x1024 : FVec Ideal S2048x1024 .bf16) (constant (F := Ideal) S512x2048 .f32 0x00000000#32)

/-- The block's weights: the exponentials of the scores less their row's maximum. -/
def weights (x0 : Vec Ideal S1x512x1024 .bf16) (x1 : Vec Ideal S1x2048x1024 .bf16) : FVec Ideal S512x2048 .f32 :=
  exp (subf (scores x0 x1) (broadcastTo S512x2048 (shapeCast S512x1
    (multiReduction (F := Ideal) .maximumf [1] S512 (scores x0 x1) 0xFF800000#32 reduces_S512x2048_S512 (.inl rfl) rfl)
    shapeCasts_S512_S512x1) broadcasts_S512x1_S512x2048))

/-- The payload is the weighted value rows over the weights' row sums, under the two outer casts. -/
theorem pay1_eq (x0 : Vec Ideal S1x512x1024 .bf16) (x1 x2 : Vec Ideal S1x2048x1024 .bf16) :
    k1_pay1 x0 x1 x2 = shapeCast S1x512x1024 (divf
      (matmul dot_S512x2048_S2048x1024_S512x1024_1_0_0_1_n_n none (truncf .bf16 (weights x0 x1) bitsLt_bf16_f32 : FVec Ideal S512x2048 .bf16)
        (shapeCast S2048x1024 x2 shapeCasts_S1x2048x1024_S2048x1024 : FVec Ideal S2048x1024 .bf16) (constant (F := Ideal) S512x1024 .f32 0x00000000#32))
      (broadcastTo S512x1024 (shapeCast S512x1
        (multiReduction (F := Ideal) .add [1] S512 (weights x0 x1) 0x00000000#32 reduces_S512x2048_S512 (.inl rfl) rfl)
        shapeCasts_S512_S512x1) broadcasts_S512x1_S512x1024)) shapeCasts_S512x1024_S1x512x1024 := rfl

theorem scores_apply (x0 : Vec Ideal S1x512x1024 .bf16) (x1 : Vec Ideal S1x2048x1024 .bf16) (i : Fin 512) (j : Fin 2048) :
    scores x0 x1 (ix2 i j)
      = Cert.Attn.scoreK Cert.Attn.cKernel (fun d => x0 (ix3 (0 : Fin 1) i d)) (fun j d => x1 (ix3 (0 : Fin 1) j d)) j := by
  unfold scores Cert.Attn.scoreK
  rw [scoreDot_apply]
  refine Finset.sum_congr rfl fun d _ => ?_
  rw [mulf_apply, broadcast_apply, shapeCast_1ab_ab_apply, shapeCast_1ab_ab_apply]
  rfl

theorem weights_apply (x0 : Vec Ideal S1x512x1024 .bf16) (x1 : Vec Ideal S1x2048x1024 .bf16) (i : Fin 512) (j : Fin 2048) :
    weights x0 x1 (ix2 i j)
      = Cert.Attn.expShift (Cert.Attn.scoreK Cert.Attn.cKernel (fun d => x0 (ix3 (0 : Fin 1) i d)) (fun j d => x1 (ix3 (0 : Fin 1) j d))) j := by
  unfold weights Cert.Attn.expShift
  show Ideal.exp (subf (scores x0 x1) _ (ix2 i j)) = _
  rw [subf_apply, spreadKeys_apply, column_apply]
  refine congrArg Ideal.exp (congrArg₂ (· - ·) (scores_apply x0 x1 i j) ?_)
  refine (rowMax_apply (scores x0 x1) _ _ i).trans ?_
  exact congrArg (fun f : Fin 2048 → EReal => (Finset.univ : Finset (Fin 2048)).fold max ⊥ f) (funext fun j' => scores_apply x0 x1 i j')

/-- The payload at (u, i, e): the kernel's row form over the three loaded blocks. -/
theorem pay1_apply (x0 : Vec Ideal S1x512x1024 .bf16) (x1 x2 : Vec Ideal S1x2048x1024 .bf16) (u : Fin 1) (i : Fin 512) (e : Fin 1024) :
    k1_pay1 x0 x1 x2 (ix3 u i e)
      = Cert.Attn.kernelRow Cert.Attn.cKernel (fun d => x0 (ix3 (0 : Fin 1) i d)) (fun j d => x1 (ix3 (0 : Fin 1) j d))
          (fun j d => x2 (ix3 (0 : Fin 1) j d)) e := by
  rw [pay1_eq, shapeCast_ab_1ab_apply, divf_apply, valueDot_apply, spreadCols_apply, column_apply]
  unfold Cert.Attn.kernelRow
  refine congrArg₂ Ideal.div (Finset.sum_congr rfl fun j _ => ?_)
    ((rowSum_apply (weights x0 x1) _ _ i).trans (Finset.sum_congr rfl fun j _ => weights_apply x0 x1 i j))
  rw [truncf_apply, weights_apply, shapeCast_1ab_ab_apply]

/-! ## From the payload to the array -/

variable (V : (c : Dev nD) → (b : Ref sig .tc) → Buf (Elt Ideal) ((c : Thread nD τ).loc b))

theorem zeroOffsets : (![0, 0, 0] : Fin 3 → Nat) = fun _ => 0 := funext fun a => by fin_cases a <;> rfl

/-- One block entry is the attention's entry there, given where the three loaded blocks sit in the projection array:
    the queries at rows 512·Q … of batch B and the first 1024 columns, the keys and the values at all rows of batch B
    and the second and third 1024 columns. -/
theorem point_eq (P : S8x2048x3072.Idx → EReal) (x0 : Vec Ideal S1x512x1024 .bf16) (x1 x2 : Vec Ideal S1x2048x1024 .bf16)
    (B Q : Nat) (hB : B < 8) (hQ : Q < 4)
    (h0 : ∀ (i : Fin 512) (d : Fin 1024), x0 (ix3 (0 : Fin 1) i d) = P (ix3 (⟨B, hB⟩ : Fin 8) (⟨512 * Q + i.val, by omega⟩ : Fin 2048) (Cert.Attn.colQ d)))
    (h1 : ∀ (j : Fin 2048) (d : Fin 1024), x1 (ix3 (0 : Fin 1) j d) = P (ix3 (⟨B, hB⟩ : Fin 8) j (Cert.Attn.colK d)))
    (h2 : ∀ (j : Fin 2048) (d : Fin 1024), x2 (ix3 (0 : Fin 1) j d) = P (ix3 (⟨B, hB⟩ : Fin 8) j (Cert.Attn.colV d)))
    (y : S1x512x1024.Idx) (z : S8x2048x1024.Idx)
    (hz0 : (z 0).val = B) (hz1 : (z 1).val = 512 * Q + (y 1).val) (hz2 : (z 2).val = (y 2).val) :
    k1_pay1 x0 x1 x2 y = Cert.Attn.attnK P z := by
  obtain ⟨u, i, e, rfl⟩ : ∃ (u : Fin 1) (i : Fin 512) (e : Fin 1024), y = ix3 u i e := ⟨y 0, y 1, y 2, eq_ix3 y⟩
  rw [pay1_apply]
  unfold Cert.Attn.attnK
  have eb : (⟨(z 0).val, (z 0).isLt⟩ : Fin 8) = ⟨B, hB⟩ := Fin.ext hz0
  have en : (⟨(z 1).val, (z 1).isLt⟩ : Fin 2048) = ⟨512 * Q + i.val, by omega⟩ := Fin.ext hz1
  have ee : (⟨(z 2).val, (z 2).isLt⟩ : Fin 1024) = e := Fin.ext hz2
  have eq : (fun d => x0 (ix3 (0 : Fin 1) i d)) = Cert.Attn.qRow P ⟨B, hB⟩ ⟨512 * Q + i.val, by omega⟩ := funext fun d => h0 i d
  have ek : (fun j d => x1 (ix3 (0 : Fin 1) j d)) = Cert.Attn.kRow P ⟨B, hB⟩ := funext fun j => funext fun d => h1 j d
  have ev : (fun j d => x2 (ix3 (0 : Fin 1) j d)) = Cert.Attn.vRow P ⟨B, hB⟩ := funext fun j => funext fun d => h2 j d
  rw [eb, en, ee, eq, ek, ev]

/-- The index maps over the grid: the queries' block moves with the output's, the keys' and the values' blocks are the
    batch's second and third column blocks, and the output's block index is (batch, row block, 0). -/
theorem idx_facts1 : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 1
    ∧ win1_2.index t (0 : Fin 3) = win1_3.index t (0 : Fin 3) ∧ win1_2.index t (1 : Fin 3) = 0 ∧ win1_2.index t (2 : Fin 3) = 2
    ∧ win1_3.index t (0 : Fin 3) < 8 ∧ win1_3.index t (1 : Fin 3) < 4 ∧ win1_3.index t (2 : Fin 3) = 0 :=
  (by decide +kernel : ∀ t : Fin grid1.N, _)

/-- Every (batch, row block) is some point's. -/
theorem idx_onto1 : ∀ (q0 : Fin 8) (q1 : Fin 4), ∃ t : Fin cfg1.N, win1_3.index t = ![q0.val, q1.val, 0] :=
  (by decide +kernel : ∀ (q0 : Fin 8) (q1 : Fin 4), ∃ t : Fin grid1.N, win1_3.index t = ![q0.val, q1.val, 0])

/-- What point t writes back is block t of the attention of the projection array. -/
theorem flushed1_eq (c : Dev nD) (t : Fin cfg1.N) :
    (dat1 V c).flushed 3 t
      = ((cfg1.win 3).blk t).view.read (Elt Ideal) (Cert.Attn.attnK (V c main_v4 : S8x2048x3072.Idx → EReal)) := by
  show (cfg1.win 3).cut (grid1.coords t) ((dat1 V c).after 3 t) = _
  rw [after1_3]
  unfold out1_3
  rw [View.canon_unit_zero zeroOffsets]
  simp only [View.ld_unit_zero (S := S1x512x1024) zeroOffsets, View.ld_unit_zero (S := S1x2048x1024) zeroOffsets]
  obtain ⟨a0, a1, a2, b0, b1, b2, c0, c1, c2, o0, o1, o2⟩ := idx_facts1 t
  funext y
  show k1_pay1 (iblk1 V c 0 t) (iblk1 V c 1 t) (iblk1 V c 2 t) ((cfg1.win 3).xinj (grid1.coords t) y)
    = Cert.Attn.attnK (V c main_v4 : S8x2048x3072.Idx → EReal) (((cfg1.win 3).blk t).view.emb y)
  refine point_eq (V c main_v4) (iblk1 V c 0 t) (iblk1 V c 1 t) (iblk1 V c 2 t) (win1_3.index t (0 : Fin 3)) (win1_3.index t (1 : Fin 3)) o0 o1
    ?_ ?_ ?_ ((cfg1.win 3).xinj (grid1.coords t) y) (((cfg1.win 3).blk t).view.emb y) ?_ ?_ ?_
  · intro i d
    show V c main_v4 (((cfg1.win 0).blk t).view.emb (ix3 (0 : Fin 1) i d)) = V c main_v4 _
    refine congrArg (V c main_v4) (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * i.val = 512 * win1_3.index t (1 : Fin 3) + i.val; omega
    | ⟨2, _⟩ => show win1_0.index t (2 : Fin 3) * 1024 + 1 * d.val = d.val; omega
  · intro j d
    show V c main_v4 (((cfg1.win 1).blk t).view.emb (ix3 (0 : Fin 1) j d)) = V c main_v4 _
    refine congrArg (V c main_v4) (funext fun a => Fin.ext ?_)
    match a with
    | ⟨0, _⟩ => show win1_1.index t (0 : Fin 3) * 1 + 1 * 0 = win1_3.index t (0 : Fin 3); omega
    | ⟨1, _⟩ => show win1_1.index t (1 : Fin 3) * 2048 + 1 * j.val = j.val; omega
    | ⟨2, _⟩ => show win1_1.index t (2 : Fin 3) * 1024 + 1 * d.val = 1024 + d.val; omega
  · intro j d
    show V c main_v4 (((cfg1.win 2).blk t).view.emb (ix3 (0 : Fin 1) j d)) = V c main_v4 _
    refine congrArg (V c main_v4) (funext fun a => Fin.ext ?_)
    match a with
    | ⟨0, _⟩ => show win1_2.index t (0 : Fin 3) * 1 + 1 * 0 = win1_3.index t (0 : Fin 3); omega
    | ⟨1, _⟩ => show win1_2.index t (1 : Fin 3) * 2048 + 1 * j.val = j.val; omega
    | ⟨2, _⟩ => show win1_2.index t (2 : Fin 3) * 1024 + 1 * d.val = 2048 + d.val; omega
  · have hy : (y 0).val < 1 := (y 0).isLt
    show win1_3.index t (0 : Fin 3) * 1 + 1 * (y 0).val = win1_3.index t (0 : Fin 3); omega
  · show win1_3.index t (1 : Fin 3) * 512 + 1 * (y 1).val = 512 * win1_3.index t (1 : Fin 3) + (y 1).val; omega
  · show win1_3.index t (2 : Fin 3) * 1024 + 1 * (y 2).val = (y 2).val; omega

/-- An index of the result array is in point t's block iff each coordinate is in the block's range on its axis. -/
theorem mem_blk1 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v5).slice (win1_3.rect t)).set ↔ _
  rw [View.set_slice_whole, Rect.mem_set_unit]
  exact Iff.rfl

/-- The 32 blocks cover the result array: row n of batch b is in the block of point (b, n / 512). -/
theorem cover1 (i : S8x2048x1024.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  obtain ⟨t, ht⟩ := idx_onto1 ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The result array after the region, from the region-entry contents V: the attention of the projection array. -/
theorem value1 (V : (c : Dev nD) → (b : Ref sig .tc) → Buf (Elt Ideal) ((c : Thread nD τ).loc b)) (c : Dev nD) :
    (dat1 V c).arrAt 3 cfg1.N = Cert.Attn.attnK (V c main_v4 : S8x2048x3072.Idx → EReal) :=
  (dat1 V c).arrAt_eq_of_cover 3 (Cert.Attn.attnK (V c main_v4 : S8x2048x3072.Idx → EReal)) (fun t _ => flushed1_eq V c t) cover1

end Cert.KernelIdeal.Val

end
-- ==== Proof.KernelValue.lean ====
/-
  From the run's last contents to the specification, at the ideal instance. The projection region is entered with x
  reshaped to 16384 rows, the weight transposed and the bias; what it leaves, reshaped back to (batch, row, column), is
  the fused projection of the three arguments; the attention region turns that array into the kernel's row form of
  the attention. So the result array at the end of the run is that function of the argument arrays.
-/
import proofs.«406627_j7318624272435_3_alg».proof.Proof.Run
import proofs.«406627_j7318624272435_3_alg».proof.Proof.Value0
import proofs.«406627_j7318624272435_3_alg».proof.Proof.Value1
import proofs.«406627_j7318624272435_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The host stages read back -/

/-- The projection region finds x reshaped to 16384 rows, -/
theorem entry_x (c : Dev nD) :
    V1 m ρ c main_v2 = shapeCast S16384x1024 (m ((c : Thread nD τ).loc main_arg0)) shapeCasts_S8x2048x1024_S16384x1024 := by
  show StableHlo.after hostOps0 (W0 m ρ c) (Proc.devRef .tc main_v2) = _
  after_results <;> rfl
/-- the weight transposed (and narrowed: the identity on extended reals), -/
theorem entry_w (c : Dev nD) :
    V1 m ρ c main_v1 = truncf (F := Ideal) .bf16 (transpose S1024x3072 [1, 0] (m ((c : Thread nD τ).loc main_arg1)) transposes_S3072x1024_S1024x3072_1_0) bitsLt_bf16_f32 := by
  show StableHlo.after hostOps0 (W0 m ρ c) (Proc.devRef .tc main_v1) = _
  after_results <;> rfl
/-- and the bias as launched. -/
theorem entry_b (c : Dev nD) : V1 m ρ c main_arg2 = m ((c : Thread nD τ).loc main_arg2) := by
  show StableHlo.after hostOps0 (W0 m ρ c) (Proc.devRef .tc main_arg2) = _
  after_results
/-- The attention region finds the projection's array reshaped to [8, 2048, 3072]. -/
theorem entry_p (c : Dev nD) :
    V3 m ρ c main_v4 = shapeCast S8x2048x3072 (W2 m ρ c (Proc.devRef .tc main_v3)) shapeCasts_S16384x3072_S8x2048x3072 := by
  show StableHlo.after hostOps1 (W2 m ρ c) (Proc.devRef .tc main_v4) = _
  after_results <;> rfl

/-! ## The projection, then the attention -/

/-- The array the attention region is entered with IS the fused projection of the three arguments: the reshape
    of the 16384 rows back to (batch, row), the reshaped x read at (b, n, e), the transposed weight at (f, e). -/
theorem entry_p_eq (c : Dev nD) :
    (V3 m ρ c main_v4 : S8x2048x3072.Idx → EReal)
      = Cert.Attn.qkv (m ((c : Thread nD τ).loc main_arg0)) (m ((c : Thread nD τ).loc main_arg1)) (m ((c : Thread nD τ).loc main_arg2)) := by
  rw [entry_p, W2_out, value0, entry_x, entry_w, entry_b]
  funext i
  have h0 : (i 0).val < 8 := (i 0).isLt
  have h1 : (i 1).val < 2048 := (i 1).isLt
  have h2 : (i 2).val < 3072 := (i 2).isLt
  refine (shapeCast_apply _ _ i (ix2 (n0 := 16384) (n1 := 3072) ⟨(i 0).val * 2048 + (i 1).val, by omega⟩ ⟨(i 2).val, h2⟩)
    (by rw [Shape.rowMajor_val_two, Shape.rowMajor_val_three]
        show ((i 0).val * 2048 + (i 1).val) * 3072 + (i 2).val = ((i 0).val * 2048 + (i 1).val) * 3072 + (i 2).val
        rfl)).trans ?_
  unfold proj0 Cert.Attn.qkv
  refine congrArg₂ (· + ·) (Finset.sum_congr rfl fun e _ => congrArg₂ (· * ·) ?_ ?_) rfl
  · exact shapeCast_apply _ _ _ (ix3 (n0 := 8) (n1 := 2048) (n2 := 1024) ⟨(i 0).val, h0⟩ ⟨(i 1).val, h1⟩ e)
      (by rw [Shape.rowMajor_val_two, Shape.rowMajor_val_three]
          show ((i 0).val * 2048 + (i 1).val) * 1024 + e.val = ((i 0).val * 2048 + (i 1).val) * 1024 + e.val
          rfl)
  · show transpose S1024x3072 [1, 0] (m ((c : Thread nD τ).loc main_arg1)) transposes_S3072x1024_S1024x3072_1_0 _ = _
    exact transpose_apply _ _ _ _ (ix2 (n0 := 3072) (n1 := 1024) ⟨(i 2).val, h2⟩ e)
      (fun b => match b with | ⟨0, _⟩ => rfl | ⟨1, _⟩ => rfl)

/-- The result array at the end of the run is the kernel's form of the attention of the fused projection. -/
theorem kernel_value (c : Dev nD) :
    (W4 m ρ c (Proc.devRef .tc main_v5) : S8x2048x1024.Idx → EReal)
      = Cert.Attn.kernelOut (m ((c : Thread nD τ).loc main_arg0)) (m ((c : Thread nD τ).loc main_arg1)) (m ((c : Thread nD τ).loc main_arg2)) := by
  rw [W4_out, value1, entry_p_eq]
  rfl

end Cert.KernelIdeal.Val

end
-- ==== Proof.RefValue.lean ====
/-
  The reference's result read index by index: the qkv projection, the three slices, the scaled scores, the
  row-wise softmax and the weighted sum of the value rows, each host stage read at an index.
-/
import proofs.«406627_j7318624272435_3_alg».proof.Defs
import proofs.«406627_j7318624272435_3_alg».proof.Proof.Gen.ReferenceIdeal.Read
import proofs.«406627_j7318624272435_3_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic
open Idealize.ShloMosaic.ValueIdx Cert.Attn

variable (x0 : (⟨S8x2048x1024, .f32⟩ : BufTy).Contents (Elt Ideal)) (x1 : (⟨S3072x1024, .f32⟩ : BufTy).Contents (Elt Ideal))
  (x2 : (⟨S3072, .f32⟩ : BufTy).Contents (Elt Ideal))

/-- The projection stage: entry (b, n, f) is Σ_e x[b,n,e]·w[f,e] + bias[f]. -/
theorem proj_eq : val_main_v3 (F := Ideal) x0 x1 x2 = qkv x0 x1 x2 := by
  funext i
  rw [val_main_v3_apply, val_main_v0_apply, val_main_v2_apply, val_main_v1_apply]
  have hl : ∀ k : Fin 1024, lidx_main_v0 i k
      = ix3 (n0 := 8) (n1 := 2048) ⟨(i 0).val, (i 0).isLt⟩ ⟨(i 1).val, (i 1).isLt⟩ k := fun k =>
    funext fun a => Fin.ext (by match a with | ⟨0, _⟩ => rfl | ⟨1, _⟩ => rfl | ⟨2, _⟩ => rfl)
  have hr : ∀ k : Fin 1024, ridx_main_v0 i k = ix2 (n0 := 3072) ⟨(i 2).val, (i 2).isLt⟩ k := fun k =>
    funext fun a => Fin.ext (by match a with | ⟨0, _⟩ => rfl | ⟨1, _⟩ => rfl)
  have hb : idx_main_v1 (idx_main_v2 i) = ix1 (n := 3072) ⟨(i 2).val, (i 2).isLt⟩ :=
    funext fun a => Fin.ext (by match a with | ⟨0, _⟩ => rfl)
  simp only [hl, hr, hb]
  rfl

/-- The scale stage is the constant 1/√1024 at every index. -/
theorem scale_eq (i : S8x2048x2048.Idx) : val_main_v10 (F := Ideal) i = cRef := by
  rw [val_main_v10_apply, val_main_v8_apply, val_main_cst_0_apply, val_main_v7_apply, val_main_cst_apply]
  rfl

/-- The scaled scores: entry (b, n, j) is (Σ_d q[b,n,d]·k[b,j,d])·c. -/
theorem score_eq (b : Fin 8) (n j : Fin 2048) :
    val_main_v11 (F := Ideal) x0 x1 x2 (ix3 b n j)
      = scoreR cRef (qRow (qkv x0 x1 x2) b n) (kRow (qkv x0 x1 x2) b) j := by
  rw [val_main_v11_apply, val_main_v9_apply, scale_eq]
  unfold scoreR qRow kRow
  rw [Ideal.mulf_def]
  refine congrArg (· * cRef) (Finset.sum_congr rfl fun d _ => ?_)
  rw [val_main_v4_apply, val_main_v5_apply, proj_eq]
  have hq : idx_main_v4 (lidx_main_v9 (ix3 b n j) d) = ix3 b n (colQ d) :=
    funext fun a => Fin.ext (by match a with | ⟨0, _⟩ => rfl | ⟨1, _⟩ => rfl | ⟨2, _⟩ => rfl)
  have hk : idx_main_v5 (ridx_main_v9 (ix3 b n j) d) = ix3 b j (colK d) :=
    funext fun a => Fin.ext (by match a with | ⟨0, _⟩ => rfl | ⟨1, _⟩ => rfl | ⟨2, _⟩ => rfl)
  rw [hq, hk]

/-- Dropping the last axis of the score array gives the row array. -/
theorem red : S8x2048x2048.Reduces [2] S8x2048 := by decide

/-- The row index (b, n) with j inserted on the dropped axis is (b, n, j). -/
theorem lift_eq (b : Fin 8) (n j : Fin 2048) : red.lift (ix2 b n) j = ix3 b n j :=
  funext fun a => Fin.ext (by match a with | ⟨0, _⟩ => rfl | ⟨1, _⟩ => rfl | ⟨2, _⟩ => rfl)

/-- The pattern of −∞ is the bottom element. -/
theorem neg_inf_eq : FloatOps.ofBits (F := Ideal) .f32 0xFF800000#32 = (⊥ : EReal) := by
  simp [Ideal.ofBits, Ideal.ieee]

/-- The row maximum: at (b, n) the fold of max from −∞ over the row's scores. -/
theorem rowmax_eq (b : Fin 8) (n : Fin 2048) :
    val_main_v14 (F := Ideal) x0 x1 x2 (ix2 b n)
      = (Finset.univ : Finset (Fin 2048)).fold max ⊥ (scoreR cRef (qRow (qkv x0 x1 x2) b n) (kRow (qkv x0 x1 x2) b)) := by
  rw [val_main_v14_apply, val_main_v13_apply, val_main_cst_2_apply]
  unfold val_main_v12
  rw [Host.reduce_eq_fold_single FloatOps.maximumf _ _ reducesTo_S8x2048x2048_S8x2048_d2 red h_S_, val_main_cst_1_apply]
  have hf : (val_main_v11 (F := Ideal) x0 x1 x2 ∘ red.lift (ix2 b n))
      = scoreR cRef (qRow (qkv x0 x1 x2) b n) (kRow (qkv x0 x1 x2) b) :=
    funext fun (j : Fin 2048) => by
      show val_main_v11 (F := Ideal) x0 x1 x2 (red.lift (ix2 b n) j) = _
      rw [lift_eq, score_eq]
  rw [hf, neg_inf_eq]
  exact max_bot_left _

/-- The shifted exponentials: entry (b, n, j) is exp(t_j − max t). -/
theorem exp_eq (b : Fin 8) (n j : Fin 2048) :
    val_main_v18 (F := Ideal) x0 x1 x2 (ix3 b n j)
      = expShift (scoreR cRef (qRow (qkv x0 x1 x2) b n) (kRow (qkv x0 x1 x2) b)) j := by
  rw [val_main_v18_apply, val_main_v17_apply, val_main_v16_apply, val_main_v15_apply]
  have hi : idx_main_v15 (idx_main_v16 (ix3 b n j)) = ix2 b n :=
    funext fun a => Fin.ext (by match a with | ⟨0, _⟩ => rfl | ⟨1, _⟩ => rfl)
  rw [hi, rowmax_eq, score_eq]
  rfl

/-- The row sums of the exponentials. -/
theorem sum_eq (b : Fin 8) (n : Fin 2048) :
    val_main_v19 (F := Ideal) x0 x1 x2 (ix2 b n)
      = ∑ j : Fin 2048, expShift (scoreR cRef (qRow (qkv x0 x1 x2) b n) (kRow (qkv x0 x1 x2) b)) j := by
  rw [val_main_v19_apply, val_main_cst_3_apply, Ideal.ofBits_def, Ideal.ofBits_zero_f32, zero_add]
  refine Finset.sum_congr rfl fun k _ => ?_
  have hi : idx_main_v19 (ix2 b n) k = ix3 b n k :=
    funext fun a => Fin.ext (by match a with | ⟨0, _⟩ => rfl | ⟨1, _⟩ => rfl | ⟨2, _⟩ => rfl)
  rw [hi, exp_eq]

/-- The softmax weights: each exponential over its row's sum. -/
theorem weight_eq (b : Fin 8) (n j : Fin 2048) :
    val_main_v22 (F := Ideal) x0 x1 x2 (ix3 b n j)
      = Ideal.div (expShift (scoreR cRef (qRow (qkv x0 x1 x2) b n) (kRow (qkv x0 x1 x2) b)) j)
          (∑ j' : Fin 2048, expShift (scoreR cRef (qRow (qkv x0 x1 x2) b n) (kRow (qkv x0 x1 x2) b)) j') := by
  rw [val_main_v22_apply, val_main_v21_apply, val_main_v20_apply]
  have hi : idx_main_v20 (idx_main_v21 (ix3 b n j)) = ix2 b n :=
    funext fun a => Fin.ext (by match a with | ⟨0, _⟩ => rfl | ⟨1, _⟩ => rfl)
  rw [hi, sum_eq, exp_eq]
  rfl

/-- The reference's result is the attention of the fused projection, the reference's way. -/
theorem ref_value (x0 : (⟨S8x2048x1024, .f32⟩ : BufTy).Contents (Elt Ideal)) (x1 : (⟨S3072x1024, .f32⟩ : BufTy).Contents (Elt Ideal)) (x2 : (⟨S3072, .f32⟩ : BufTy).Contents (Elt Ideal)) :
    val_main_v23 (F := Ideal) x0 x1 x2 = Cert.Attn.refOut x0 x1 x2 := by
  funext i
  obtain ⟨b, n, e, rfl⟩ : ∃ (b : Fin 8) (n : Fin 2048) (e : Fin 1024), i = ix3 b n e :=
    ⟨i 0, i 1, i 2, eq_ix3 i⟩
  rw [val_main_v23_apply]
  show _ = refRow cRef (qRow (qkv x0 x1 x2) b n) (kRow (qkv x0 x1 x2) b) (vRow (qkv x0 x1 x2) b) e
  unfold refRow vRow
  refine Finset.sum_congr rfl fun k _ => ?_
  have hl : lidx_main_v23 (ix3 b n e) k = ix3 b n k :=
    funext fun a => Fin.ext (by match a with | ⟨0, _⟩ => rfl | ⟨1, _⟩ => rfl | ⟨2, _⟩ => rfl)
  have hv : idx_main_v6 (ridx_main_v23 (ix3 b n e) k) = ix3 b k (colV e) :=
    funext fun a => Fin.ext (by match a with | ⟨0, _⟩ => rfl | ⟨1, _⟩ => rfl | ⟨2, _⟩ => rfl)
  rw [hl, weight_eq, val_main_v6_apply, proj_eq, hv]

end Cert.ReferenceIdeal.RefValue

end
-- ==== Proof.Algebra.lean ====
/-
  The algebraic law between the two forms of scaled dot-product attention over the fused projection.

  The two scales are the same real number 1/32: the kernel's is the pattern of 2⁻⁵, the reference's is
  1 / √1024 with √1024 = 32. On real entries every finite sum of products is the coercion of the real sum,
  so the scale leaves the inner sum (Σ_d (q_d·c)·k_d = (Σ_d q_d·k_d)·c) and both forms have the same real
  scores s_j. The running maximum of finitely many reals, folded from ⊥ over a nonempty index set, is a real M;
  hence each shifted exponential exp (s_j − M) is a positive real and the denominator L = Σ_j exp (s_j − M) is a
  positive real. Division by the nonzero real L is multiplication by 1/L, and in ℝ
      (Σ_j p_j·v_j)·(1/L) = Σ_j (p_j·(1/L))·v_j.
-/
import proofs.«406627_j7318624272435_3_alg».proof.Proof.Spec
import Mathlib.Analysis.Real.Sqrt
import Mathlib.Analysis.Complex.Exponential
import Mathlib.Data.EReal.Basic
import Mathlib.Data.EReal.Operations
import Mathlib.Data.Finset.Fold
import Mathlib.Algebra.BigOperators.Ring.Finset
import Mathlib.Algebra.Order.BigOperators.Group.Finset
import Mathlib.Order.MinMax

noncomputable section

namespace Cert.Attn

open Idealize.ShloMosaic Idealize.ShloMosaic.ValueIdx

/-! ### The two scales -/

theorem ofBits_2m5 : Ideal.ofBits .bf16 0x3D00#16 = ((1 / 32 : ℝ) : EReal) := by
  simp [Ideal.ofBits, Ideal.ieee, -EReal.coe_mul]; norm_num

theorem ofBits_one' : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem sqrt_1024 : Real.sqrt 1024 = 32 := by
  rw [show (1024 : ℝ) = 32 * 32 by norm_num]
  exact Real.sqrt_mul_self (by norm_num)

theorem cKernel_eq : cKernel = ((1 / 32 : ℝ) : EReal) := by
  rw [cKernel, ofBits_2m5]

theorem cRef_eq : cRef = ((1 / 32 : ℝ) : EReal) := by
  rw [cRef, ofBits_one', ofBits_1024, Ideal.sqrt_coe, if_neg (by norm_num), sqrt_1024,
    Ideal.div_coe (by norm_num), ← EReal.coe_mul]
  norm_num

/-! ### Real coercions through finite sums and through the running maximum -/

/-- The coercion of a finite real sum is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t h ih => rw [Finset.sum_insert h, Finset.sum_insert h, EReal.coe_add, ih]

/-- The maximum, folded from ⊥, of real coercions over a nonempty finite set is a real coercion. -/
theorem fold_max_coe {ι : Type} (s : ι → ℝ) (t : Finset ι) :
    t.Nonempty → ∃ M : ℝ, t.fold max ⊥ (fun j => ((s j : ℝ) : EReal)) = (M : EReal) := by
  classical
  induction t using Finset.induction_on with
  | empty => intro ht; exact absurd ht (by simp)
  | insert a t h ih =>
    intro _
    rw [Finset.fold_insert h]
    rcases t.eq_empty_or_nonempty with rfl | hne
    · exact ⟨s a, by simp⟩
    · obtain ⟨M, hM⟩ := ih hne
      exact ⟨max (s a) M, by rw [hM]; exact (EReal.coe_strictMono.monotone.map_max).symm⟩

/-! ### One row -/

/-- For real scores and a real value column, dividing the weighted sum once equals summing the divided weights:
    the common denominator, a sum of exponentials, is a positive real. -/
theorem softmax_row (s V : Fin 2048 → ℝ) :
    Ideal.div (∑ j : Fin 2048, expShift (fun j => (s j : EReal)) j * (V j : EReal))
        (∑ j : Fin 2048, expShift (fun j => (s j : EReal)) j)
      = ∑ j : Fin 2048, Ideal.div (expShift (fun j => (s j : EReal)) j)
          (∑ j' : Fin 2048, expShift (fun j => (s j : EReal)) j') * (V j : EReal) := by
  obtain ⟨M, hM⟩ := fold_max_coe s Finset.univ ⟨(0 : Fin 2048), Finset.mem_univ _⟩
  have hp : ∀ j, expShift (fun j => (s j : EReal)) j = ((Real.exp (s j - M) : ℝ) : EReal) := by
    intro j
    rw [expShift, hM, ← EReal.coe_sub, Ideal.exp_coe]
  simp only [hp]
  have hL : (∑ j : Fin 2048, Real.exp (s j - M)) ≠ 0 :=
    (Finset.sum_pos (fun j _ => Real.exp_pos _) ⟨(0 : Fin 2048), Finset.mem_univ _⟩).ne'
  have h1 : (∑ j : Fin 2048, ((Real.exp (s j - M) : ℝ) : EReal))
      = ((∑ j : Fin 2048, Real.exp (s j - M) : ℝ) : EReal) := (coe_sum _ _).symm
  have h2 : (∑ j : Fin 2048, ((Real.exp (s j - M) : ℝ) : EReal) * (V j : EReal))
      = ((∑ j : Fin 2048, Real.exp (s j - M) * V j : ℝ) : EReal) := by
    rw [coe_sum]; simp only [EReal.coe_mul]
  rw [h2, h1, Ideal.div_coe hL]
  simp only [Ideal.div_coe hL, ← EReal.coe_mul]
  rw [← coe_sum, Finset.sum_mul]
  exact congrArg Real.toEReal (Finset.sum_congr rfl (fun j _ => by ring))

/-- every entry of the projection of real arrays is real -/
theorem qkv_real (x : SX.Idx → EReal) (w : SW.Idx → EReal) (bias : SB.Idx → EReal)
    (hx : ∀ i, ∃ r : ℝ, x i = (r : EReal)) (hw : ∀ i, ∃ r : ℝ, w i = (r : EReal)) (hb : ∀ i, ∃ r : ℝ, bias i = (r : EReal)) :
    ∀ i, ∃ r : ℝ, qkv x w bias i = (r : EReal) := by
  choose x' hx' using hx
  choose w' hw' using hw
  choose b' hb' using hb
  intro i
  refine ⟨(∑ e : Fin 1024, x' (ix3 (n0 := 8) (n1 := 2048) ⟨(i 0).val, (i 0).isLt⟩ ⟨(i 1).val, (i 1).isLt⟩ e)
      * w' (ix2 (n0 := 3072) ⟨(i 2).val, (i 2).isLt⟩ e))
    + b' (ix1 (n := 3072) ⟨(i 2).val, (i 2).isLt⟩), ?_⟩
  rw [qkv, EReal.coe_add, coe_sum, hb']
  congr 1
  exact Finset.sum_congr rfl (fun e _ => by rw [hx', hw', EReal.coe_mul])

/-- the two row forms agree on real data at a common real scale -/
theorem row_eq (c : ℝ) (q : Fin 1024 → EReal) (K V : Fin 2048 → Fin 1024 → EReal)
    (hq : ∀ d, ∃ r : ℝ, q d = (r : EReal)) (hK : ∀ j d, ∃ r : ℝ, K j d = (r : EReal)) (hV : ∀ j d, ∃ r : ℝ, V j d = (r : EReal)) (e : Fin 1024) :
    kernelRow (c : EReal) q K V e = refRow (c : EReal) q K V e := by
  choose q' hq' using hq
  choose K' hK' using hK
  choose V' hV' using hV
  have hsK : scoreK (c : EReal) q K = fun j => ((∑ d : Fin 1024, q' d * c * K' j d : ℝ) : EReal) := by
    funext j
    rw [scoreK, coe_sum]
    exact Finset.sum_congr rfl (fun d _ => by rw [hq', hK', EReal.coe_mul, EReal.coe_mul])
  have hsR : scoreR (c : EReal) q K = fun j => ((∑ d : Fin 1024, q' d * c * K' j d : ℝ) : EReal) := by
    funext j
    have h : (∑ d : Fin 1024, q d * K j d) = ((∑ d : Fin 1024, q' d * K' j d : ℝ) : EReal) := by
      rw [coe_sum]
      exact Finset.sum_congr rfl (fun d _ => by rw [hq', hK', EReal.coe_mul])
    rw [scoreR, h, ← EReal.coe_mul, Finset.sum_mul]
    congr 1
    exact Finset.sum_congr rfl (fun d _ => by ring)
  rw [kernelRow, refRow, hsK, hsR]
  simp only [hV']
  exact softmax_row _ (fun j => V' j e)

theorem attn_eq (P : SQ.Idx → EReal) (hP : ∀ i, ∃ r : ℝ, P i = (r : EReal)) : attnK P = attnR P := by
  funext i
  rw [attnK, attnR, cKernel_eq, cRef_eq]
  exact row_eq _ _ _ _ (fun d => hP _) (fun j d => hP _) (fun j d => hP _) _

theorem out_eq (x : SX.Idx → EReal) (w : SW.Idx → EReal) (bias : SB.Idx → EReal)
    (hx : ∀ i, ∃ r : ℝ, x i = (r : EReal)) (hw : ∀ i, ∃ r : ℝ, w i = (r : EReal)) (hb : ∀ i, ∃ r : ℝ, bias i = (r : EReal)) :
    kernelOut x w bias = refOut x w bias := by
  rw [kernelOut, refOut]
  exact attn_eq _ (qkv_real x w bias hx hw hb)

end Cert.Attn

end
-- ==== Proof.Finite.lean ====
/-
  From the precondition to real entries. The precondition says of each of the three argument arrays that every
  entry a satisfies |a| < +∞, the three statements conjoined. On the extended reals |a| is max a (−a), which is +∞
  at both infinities; so an entry with |a| < +∞ is neither of them, and an extended real that is neither infinity
  is a real number.
-/
import proofs.«406627_j7318624272435_3_alg».proof.Defs
import proofs.«406627_j7318624272435_3_alg».proof.Proof.Gen.Pre_finite_inputs
import proofs.«406627_j7318624272435_3_alg».proof.Proof.Gen.KernelIdeal
import Idealize.ShloMosaic.Lib.ReduceAll
import Idealize.ShloMosaic.Lib.ValueIdx
import Idealize.ShloMosaic.PureOps.Ideal.Laws

noncomputable section

namespace Cert.Finite

open Idealize.ShloMosaic Idealize.SL.Sem
open Cert.Pre_finite_inputs (S_)

/-- The bound the precondition compares against is +∞. -/
theorem bound_eq_top : Ideal.ofBits .f32 0x7F800000#32 = ⊤ := by simp [Ideal.ofBits, Ideal.ieee]

/-- An extended real whose absolute value max x (−x) is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The rank-0 shape has one index. -/
instance : Subsingleton S_.Idx := ⟨fun a b => funext fun d => d.elim0⟩

/-- One conjunct of the precondition, at any shape: if "all entries have |a| < +∞" holds, every entry is real. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
        (constantI S_ 1 1#1) hr hu j = 1#1)
    (i : s.Idx) : ∃ r : ℝ, x i = (r : EReal) := by
  have h1 := Host.reduce_andi_all _ _ hr hu j e i
  apply real_of_abs_lt_top
  rw [← bound_eq_top]
  exact h1

/-- Under the precondition every entry of each of the three argument arrays is a real number. -/
theorem reals_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨all_real _ _ _ _ _ h0', all_real _ _ _ _ _ h1, all_real _ _ _ _ _ h2⟩

end Cert.Finite

end
-- ==== Proof.lean ====
/-
  The certificate of the fused attention kernel against its jnp reference.

  Both programs compute, for x : [8, 2048, 1024], a weight w : [3072, 1024] and a bias : [3072], the projection
  P[b,n,f] = Σ_e x[b,n,e]·w[f,e] + bias[f], whose three column blocks of width 1024 are the queries, keys and values, and
  then, per batch b and query row n, a softmax-weighted sum of the value rows. The kernel scales the QUERY by 2⁻⁵ before
  the scores' sum, subtracts the row maximum, exponentiates, sums the weighted value rows and divides ONCE by the sum of
  the exponentials; the reference scales the SCORE by 1/√1024, forms each normalised weight and then sums. On the
  extended reals 1/√1024 is 2⁻⁵ exactly; under the precondition every entry of the three arguments is a real number,
  so every projection entry is real, a finite sum of reals times 2⁻⁵ is the sum of the scaled terms, the sum of the
  exponentials is a positive real, and dividing a finite sum by it is dividing each term: the two results are one
  function of the arguments, entry by entry.

  The frames: each kernel program runs as two host stretches and two pipelined regions; every region's body is one
  whole-block store of a pure payload of its loaded blocks, so the run terminates without a fault, the regions
  write only their own output arrays, and the arguments end as launched. The reference's frame is its run read back.
  The idealization rewrote nothing, so the kernel's idealized text is its own text read on the extended reals.
-/
import proofs.«406627_j7318624272435_3_alg».proof.Defs
import proofs.«406627_j7318624272435_3_alg».proof.Proof.Gen.Kernel
import proofs.«406627_j7318624272435_3_alg».proof.Proof.Gen.KernelIdeal
import proofs.«406627_j7318624272435_3_alg».proof.Proof.Gen.ReferenceIdeal
import proofs.«406627_j7318624272435_3_alg».proof.Proof.Gen.Pre_finite_inputs
import proofs.«406627_j7318624272435_3_alg».proof.Proof.Gen.ReferenceIdeal.Run
import proofs.«406627_j7318624272435_3_alg».proof.Proof.Gen.ReferenceIdeal.Read
import proofs.«406627_j7318624272435_3_alg».proof.Proof.KRunArgs
import proofs.«406627_j7318624272435_3_alg».proof.Proof.RunArgs
import proofs.«406627_j7318624272435_3_alg».proof.Proof.KernelValue
import proofs.«406627_j7318624272435_3_alg».proof.Proof.RefValue
import proofs.«406627_j7318624272435_3_alg».proof.Proof.Algebra
import proofs.«406627_j7318624272435_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Fr.frame m ρ

/-- So does the kernel read on the extended reals. -/
theorem frame_kernelIdeal : Cert.frame_KernelIdeal := fun m ρ _ => Cert.KernelIdeal.Fr.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two idealized programs, from memories agreeing on the arguments, end with the same result: the kernel's at the
    kernel's form of the attention of the projection, the reference's at the reference's form, and on real arguments the
    two forms are one function. -/
theorem algebraic : Cert.algebraic_KernelIdeal_ReferenceIdeal := by
  intro m ρ m' ρ' hpre hagree
  refine ⟨fun c => Cert.Attn.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Fr.run_main m ρ)
    · exact (h c _ (Cert.KernelIdeal.Fr.mem_uc Cert.KernelIdeal.main_v5 (by decide))).trans (Cert.KernelIdeal.Val.kernel_value m ρ c)
    · exact (h c _ (Cert.KernelIdeal.Fr.mem_uc Cert.KernelIdeal.main_arg0 (by decide))).trans (Cert.KernelIdeal.Fr.W4_main_arg0 m ρ c)
    · exact (h c _ (Cert.KernelIdeal.Fr.mem_uc Cert.KernelIdeal.main_arg1 (by decide))).trans (Cert.KernelIdeal.Fr.W4_main_arg1 m ρ c)
    · exact (h c _ (Cert.KernelIdeal.Fr.mem_uc Cert.KernelIdeal.main_arg2 (by decide))).trans (Cert.KernelIdeal.Fr.W4_main_arg2 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, Cert.ReferenceIdeal.RefValue.ref_value, (hagree c).1, (hagree c).2.1, (hagree c).2.2]
    obtain ⟨hx, hw, hb⟩ := Cert.Finite.reals_of_pre m hpre c
    exact (Cert.Attn.out_eq _ _ _ hx hw hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
